-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2x128 .f32) (main_arg8 : FVec F S2 .f32) (main_arg9 : FVec F S2x128 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S2x128 .f32) (main_arg8 : FVec F S2 .f32) (main_arg9 : FVec F S2x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : FVec F S2x128 .f32) (main_arg8 : FVec F S2 .f32) (main_arg9 : FVec F S2x128 .f32) (main_arg10 : IVec S1600000 32) (main_arg11 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S128x2 : Shape := ⟨2, ![128, 2]⟩
abbrev S1x2 : Shape := ⟨2, ![1, 2]⟩
abbrev S100000x2 : Shape := ⟨2, ![100000, 2]⟩
abbrev S5000x2 : Shape := ⟨2, ![5000, 2]⟩
abbrev S5000 : Shape := ⟨1, ![5000]⟩
abbrev S5000x1 : Shape := ⟨2, ![5000, 1]⟩

abbrev nBuf : Space → Nat
  | .hbm => 82
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x128, .f32⟩
  | .hbm, ⟨8, _⟩ => ⟨S2, .f32⟩
  | .hbm, ⟨9, _⟩ => ⟨S2x128, .f32⟩
  | .hbm, ⟨10, _⟩ => ⟨S1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S128x2, .f32⟩
  | .hbm, ⟨79, _⟩ => ⟨S128x2, .f32⟩
  | .hbm, ⟨80, _⟩ => ⟨S1x2, .f32⟩
  | .hbm, ⟨81, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x2, .f32⟩
  | .local _ .vmem, ⟨23, _⟩ => ⟨S1x2, .f32⟩
  | .local _ .vmem, ⟨24, _⟩ => ⟨S128x2, .f32⟩
  | .local _ .vmem, ⟨25, _⟩ => ⟨S5000x2, .f32⟩
  | .local _ .vmem, ⟨26, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S2x128_S128x2_1_0 : S2x128.Transposes [1, 0] S128x2
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x2.size a ≤ S128x2.size a
  hwx2_4 : ∀ i : grid2.Coords, EltTy.bits .f32 = 32 ∨ (Rect.block (s := S128x2) S128x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S100000x2.size a
  hwx2_5 : ∀ i : grid2.Coords, EltTy.bits .f32 = 32 ∨ (Rect.block (s := S100000x2) S5000x2.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S128x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S128x2 : Shape := ⟨2, ![128, 2]⟩
abbrev S100000x2 : Shape := ⟨2, ![100000, 2]⟩
abbrev S1x2 : Shape := ⟨2, ![1, 2]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x128, .f32⟩
  | .hbm, ⟨8, _⟩ => ⟨S2, .f32⟩
  | .hbm, ⟨9, _⟩ => ⟨S2x128, .f32⟩
  | .hbm, ⟨10, _⟩ => ⟨S1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S128x2, .f32⟩
  | .hbm, ⟨93, _⟩ => ⟨S100000x2, .f32⟩
  | .hbm, ⟨94, _⟩ => ⟨S1x2, .f32⟩
  | .hbm, ⟨95, _⟩ => ⟨S100000x2, .f32⟩
  | .hbm, ⟨96, _⟩ => ⟨S100000x2, .f32⟩
  | .hbm, ⟨97, _⟩ => ⟨S128x2, .f32⟩
  | .hbm, ⟨98, _⟩ => ⟨S100000x2, .f32⟩
  | .hbm, ⟨99, _⟩ => ⟨S100000x2, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x2, .f32⟩
  | .hbm, ⟨107, _⟩ => ⟨S100000x2, .f32⟩
  | .hbm, ⟨108, _⟩ => ⟨S100000x2, .f32⟩
  | .hbm, ⟨109, _⟩ => ⟨S_, .f32⟩
  | .hbm, ⟨110, _⟩ => ⟨S100000, .f32⟩
  | .hbm, ⟨111, _⟩ => ⟨S100000x1, .f32⟩
  | .hbm, ⟨112, _⟩ => ⟨S100000x1, .f32⟩
  | .hbm, ⟨113, _⟩ => ⟨S100000x2, .f32⟩
  | .hbm, ⟨114, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_c_8 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call2_cst : Ref sig .tc := ⟨.hbm, 100, rfl⟩
abbrev main_call2_v0 : Ref sig .tc := ⟨.hbm, 101, rfl⟩
abbrev main_call2_cst_0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_cst_1 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_v71 : Ref sig .tc := ⟨.hbm, 114, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000x1_S100000x2_0_1 : S100000x1.BroadcastsInDim S100000x2 (![0, 1] : Fin 2 → Fin S100000x2.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Spec.lean ====
/-
  Three rounds of mean aggregation over a graph's edges, each followed by a dense step.

  For node features `h` (one row of 128 numbers per node) and edges `src → dst`, the neighbour mean of node `p`
  is the sum of `h`'s rows over the edges that end at `p`, times the reciprocal of the number of such edges
  (that number clipped below at one): `meanAgg`, `invDeg`. Both programs compute it by the same gather,
  scatter-add and multiply, so it is kept here as one opaque function of `h` and the edge lists; nothing below
  ever opens a gather or a scatter.

  The dense step of a layer with weights `Wl`, `Wr` (already transposed to [128, n]) and a bias row `B` ([1, n])
  takes the neighbour means `A` and the features `H` to
      lin A H Wl Wr B p q = Σ_k A[p,k]·Wl[k,q] + Σ_k H[p,k]·Wr[k,q] + B[0,q],
  followed by `max(·, 0)` in the two hidden layers (`hiddenLayer`) and, in the last layer (n = 2), by the
  log-softmax of each row: `z − max z − log Σ_k exp (z_k − max z)` (`outLayer`), the maximum a fold from −∞.
-/
import proofs.«178284_j81870666596807_1_alg».proof.Proof.Gen.KernelIdeal
import Idealize.ShloMosaic.Lib.ValueIdx

noncomputable section

namespace Cert.Sage

open Cert.KernelIdeal Idealize.ShloMosaic Idealize.ShloMosaic.TcCoe Idealize.ShloMosaic.ValueIdx
open Cert.KernelIdeal.Facts₀ Cert.KernelIdeal.Facts
open scoped BigOperators

section Host
variable {F : FTy → Type} [FloatOps F]

/-- The reciprocal of every node's in-degree (the count of edges ending there, clipped below at one), as a
    column: one divided by the larger of one and the scatter-added ones. -/
def invDeg (dst : (⟨S1600000, .i32⟩ : BufTy).Contents (Elt F)) : (⟨S100000x1, .f32⟩ : BufTy).Contents (Elt F) :=
  broadcastInDim S100000x1 ![0] bcast_S100000_S100000x1_0 (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32))))

/-- The neighbour mean: the rows of `h` gathered at the edges' sources (a negative source index counted from the
    end), scatter-added at the edges' destinations, each row scaled by `invd` of its node. -/
def meanAgg (h : (⟨S100000x128, .f32⟩ : BufTy).Contents (Elt F)) (src dst : (⟨S1600000, .i32⟩ : BufTy).Contents (Elt F))
    (invd : (⟨S100000x1, .f32⟩ : BufTy).Contents (Elt F)) : (⟨S100000x128, .f32⟩ : BufTy).Contents (Elt F) :=
  mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 invd)

end Host

/-! ## The dense step, entry by entry, on the extended reals -/

/-- Entry (p, q) of `A·Wl + H·Wr + B`, 128 columns. -/
def lin128 (A H : FVec Ideal S100000x128 .f32) (Wl Wr : FVec Ideal S128x128 .f32) (B : FVec Ideal S1x128 .f32)
    (p : Fin 100000) (q : Fin 128) : EReal :=
  (∑ k : Fin 128, A (ix2 p k) * Wl (ix2 k q)) + (∑ k : Fin 128, H (ix2 p k) * Wr (ix2 k q)) + B (ix2 (0 : Fin 1) q)

/-- A hidden layer's dense step: the positive part of `lin128`. -/
def hiddenLayer (A H : FVec Ideal S100000x128 .f32) (Wl Wr : FVec Ideal S128x128 .f32) (B : FVec Ideal S1x128 .f32) :
    FVec Ideal S100000x128 .f32 :=
  fun i => max (lin128 A H Wl Wr B (i 0) (i 1)) 0

/-- Entry (p, q) of `A·Wl + H·Wr + B`, 2 columns. -/
def lin2 (A H : FVec Ideal S100000x128 .f32) (Wl Wr : FVec Ideal S128x2 .f32) (B : FVec Ideal S1x2 .f32)
    (p : Fin 100000) (q : Fin 2) : EReal :=
  (∑ k : Fin 128, A (ix2 p k) * Wl (ix2 k q)) + (∑ k : Fin 128, H (ix2 p k) * Wr (ix2 k q)) + B (ix2 (0 : Fin 1) q)

/-- The largest of a row's two entries, folded from the float −∞. -/
def rowMax (z : Fin 2 → EReal) : EReal :=
  (Finset.univ : Finset (Fin 2)).fold max (Ideal.ofBits .f32 0xFF800000#32) z

/-- The log-softmax of a row of two: shift by the maximum, subtract the log of the sum of exponentials. -/
def logSoftmaxRow (z : Fin 2 → EReal) (q : Fin 2) : EReal :=
  (z q - rowMax z) - Ideal.log (∑ k : Fin 2, Ideal.exp (z k - rowMax z))

/-- The last layer: the row-wise log-softmax of `lin2`. -/
def outLayer (A H : FVec Ideal S100000x128 .f32) (Wl Wr : FVec Ideal S128x2 .f32) (B : FVec Ideal S1x2 .f32) :
    FVec Ideal S100000x2 .f32 :=
  fun i => logSoftmaxRow (fun q => lin2 A H Wl Wr B (i 0) q) (i 1)

/-! ## The three layers composed -/

section Net
variable (x : FVec Ideal S100000x128 .f32) (wl0 wr0 wl1 wr1 : FVec Ideal S128x128 .f32) (b0 b1 : FVec Ideal S128 .f32)
  (wl2 wr2 : FVec Ideal S2x128 .f32) (b2 : FVec Ideal S2 .f32) (src dst : IVec S1600000 32)

/-- The first hidden layer's features: the dense step of the neighbour means of `x` and of `x` itself, the weights
    transposed and the bias as a row. -/
def feat1 : FVec Ideal S100000x128 .f32 :=
  hiddenLayer (meanAgg (F := Ideal) x src dst (invDeg (F := Ideal) dst)) x
    (transpose S128x128 [1, 0] wl0 transposes_S128x128_S128x128_1_0) (transpose S128x128 [1, 0] wr0 transposes_S128x128_S128x128_1_0)
    (shapeCast S1x128 b0 shapeCasts_S128_S1x128)

/-- The second hidden layer's features, from the first's. -/
def feat2 : FVec Ideal S100000x128 .f32 :=
  hiddenLayer (meanAgg (F := Ideal) (feat1 x wl0 wr0 b0 src dst) src dst (invDeg (F := Ideal) dst)) (feat1 x wl0 wr0 b0 src dst)
    (transpose S128x128 [1, 0] wl1 transposes_S128x128_S128x128_1_0) (transpose S128x128 [1, 0] wr1 transposes_S128x128_S128x128_1_0)
    (shapeCast S1x128 b1 shapeCasts_S128_S1x128)

/-- The network's output: the last layer over the second hidden layer's features. -/
def net : FVec Ideal S100000x2 .f32 :=
  outLayer (meanAgg (F := Ideal) (feat2 x wl0 wr0 wl1 wr1 b0 b1 src dst) src dst (invDeg (F := Ideal) dst)) (feat2 x wl0 wr0 wl1 wr1 b0 b1 src dst)
    (transpose S128x2 [1, 0] wl2 transposes_S2x128_S128x2_1_0) (transpose S128x2 [1, 0] wr2 transposes_S2x128_S128x2_1_0)
    (shapeCast S1x2 b2 shapeCasts_S2_S1x2)

end Net

end Cert.Sage

end
-- ==== Proof.KChain.lean ====
/-
  The kernel program's buffers at each boundary of @main, followed from the launch memory to the result.

  @main is three stretches of host operations, each followed by one pipelined region. A host stretch computes, from the
  features `h` it is entered with, the neighbour mean of `h` (the same gather, scatter-add and scaling every time,
  `Cert.Sage.meanAgg` with the reciprocal in-degrees `Cert.Sage.invDeg` computed once in the first stretch), the two
  transposed weight matrices and the bias as a row; the region that follows leaves, in its output array, the dense
  step of those five arrays (`hR0`, `hR1`, `hR2`: what a region's write-backs add up to, for any contents the region is
  entered with). Every other buffer keeps its contents through a stretch that does not write it and through a region
  whose windows do not name it. So the result buffer ends holding `Cert.Sage.net` of the twelve arguments.
-/
import proofs.«178284_j81870666596807_1_alg».proof.Proof.Gen.KernelIdeal.Frame
import proofs.«178284_j81870666596807_1_alg».proof.Proof.Spec
import Idealize.ShloMosaic.Lib.StableHlo.Run

set_option maxRecDepth 16384

noncomputable section

namespace Cert.KernelIdeal.Sage

open Cert.KernelIdeal Cert.KernelIdeal.Gen Cert.Sage
open Cert.KernelIdeal.Facts₀ Cert.KernelIdeal.Facts
open Idealize.ShloMosaic Idealize.ShloMosaic.TcCoe Idealize.SL.Sem Idealize.ShloMosaic.StableHlo

/-- A buffer's contents after a stretch of host operations, read off the operations that lead to it. -/
macro "host_read" : tactic => `(tactic| (after_results; try rfl))
/-- A buffer that no operation of the stretch writes keeps its contents. -/
macro "host_keep" : tactic => `(tactic| exact StableHlo.after_of_forall_not_mem _ _ (List.forall_iff_forall_mem.mp (by
  simp only [hostOps0, hostOps1, hostOps2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg)

/-! ## Entering the first region: the first stretch over the launch memory -/

theorem W1_arg0 (c : Dev nD) : W1 m ρ c (Proc.devRef .tc main_arg0) = (m ((c.tc : Thread nD τ).loc main_arg0)) := by
  show StableHlo.after hostOps0 (W0 m ρ c) (Proc.devRef .tc main_arg0) = W0 m ρ c (Proc.devRef .tc main_arg0)
  host_keep
theorem W1_arg4 (c : Dev nD) : W1 m ρ c (Proc.devRef .tc main_arg4) = (m ((c.tc : Thread nD τ).loc main_arg4)) := by
  show StableHlo.after hostOps0 (W0 m ρ c) (Proc.devRef .tc main_arg4) = W0 m ρ c (Proc.devRef .tc main_arg4)
  host_keep
theorem W1_arg5 (c : Dev nD) : W1 m ρ c (Proc.devRef .tc main_arg5) = (m ((c.tc : Thread nD τ).loc main_arg5)) := by
  show StableHlo.after hostOps0 (W0 m ρ c) (Proc.devRef .tc main_arg5) = W0 m ρ c (Proc.devRef .tc main_arg5)
  host_keep
theorem W1_arg6 (c : Dev nD) : W1 m ρ c (Proc.devRef .tc main_arg6) = (m ((c.tc : Thread nD τ).loc main_arg6)) := by
  show StableHlo.after hostOps0 (W0 m ρ c) (Proc.devRef .tc main_arg6) = W0 m ρ c (Proc.devRef .tc main_arg6)
  host_keep
theorem W1_arg7 (c : Dev nD) : W1 m ρ c (Proc.devRef .tc main_arg7) = (m ((c.tc : Thread nD τ).loc main_arg7)) := by
  show StableHlo.after hostOps0 (W0 m ρ c) (Proc.devRef .tc main_arg7) = W0 m ρ c (Proc.devRef .tc main_arg7)
  host_keep
theorem W1_arg8 (c : Dev nD) : W1 m ρ c (Proc.devRef .tc main_arg8) = (m ((c.tc : Thread nD τ).loc main_arg8)) := by
  show StableHlo.after hostOps0 (W0 m ρ c) (Proc.devRef .tc main_arg8) = W0 m ρ c (Proc.devRef .tc main_arg8)
  host_keep
theorem W1_arg9 (c : Dev nD) : W1 m ρ c (Proc.devRef .tc main_arg9) = (m ((c.tc : Thread nD τ).loc main_arg9)) := by
  show StableHlo.after hostOps0 (W0 m ρ c) (Proc.devRef .tc main_arg9) = W0 m ρ c (Proc.devRef .tc main_arg9)
  host_keep
theorem W1_arg10 (c : Dev nD) : W1 m ρ c (Proc.devRef .tc main_arg10) = (m ((c.tc : Thread nD τ).loc main_arg10)) := by
  show StableHlo.after hostOps0 (W0 m ρ c) (Proc.devRef .tc main_arg10) = W0 m ρ c (Proc.devRef .tc main_arg10)
  host_keep
theorem W1_arg11 (c : Dev nD) : W1 m ρ c (Proc.devRef .tc main_arg11) = (m ((c.tc : Thread nD τ).loc main_arg11)) := by
  show StableHlo.after hostOps0 (W0 m ρ c) (Proc.devRef .tc main_arg11) = W0 m ρ c (Proc.devRef .tc main_arg11)
  host_keep

set_option maxHeartbeats 4000000 in
/-- The reciprocal in-degrees, computed once. -/
theorem W1_v8 (c : Dev nD) : W1 m ρ c (Proc.devRef .tc main_v8) = invDeg (F := Ideal) (m ((c.tc : Thread nD τ).loc main_arg11)) := by
  show StableHlo.after hostOps0 (W0 m ρ c) (Proc.devRef .tc main_v8) = _
  host_read
set_option maxHeartbeats 4000000 in
/-- The neighbour means of the input features. -/
theorem W1_v20 (c : Dev nD) : W1 m ρ c (Proc.devRef .tc main_v20) = meanAgg (F := Ideal) (m ((c.tc : Thread nD τ).loc main_arg0)) (m ((c.tc : Thread nD τ).loc main_arg10)) (m ((c.tc : Thread nD τ).loc main_arg11)) (invDeg (F := Ideal) (m ((c.tc : Thread nD τ).loc main_arg11))) := by
  show StableHlo.after hostOps0 (W0 m ρ c) (Proc.devRef .tc main_v20) = _
  host_read
set_option maxHeartbeats 4000000 in
theorem W1_v21 (c : Dev nD) : W1 m ρ c (Proc.devRef .tc main_v21) = transpose S128x128 [1, 0] (m ((c.tc : Thread nD τ).loc main_arg1)) Facts₀.transposes_S128x128_S128x128_1_0 := by
  show StableHlo.after hostOps0 (W0 m ρ c) (Proc.devRef .tc main_v21) = _
  host_read
set_option maxHeartbeats 4000000 in
theorem W1_v22 (c : Dev nD) : W1 m ρ c (Proc.devRef .tc main_v22) = transpose S128x128 [1, 0] (m ((c.tc : Thread nD τ).loc main_arg3)) Facts₀.transposes_S128x128_S128x128_1_0 := by
  show StableHlo.after hostOps0 (W0 m ρ c) (Proc.devRef .tc main_v22) = _
  host_read
set_option maxHeartbeats 4000000 in
theorem W1_v23 (c : Dev nD) : W1 m ρ c (Proc.devRef .tc main_v23) = shapeCast S1x128 (m ((c.tc : Thread nD τ).loc main_arg2)) Facts₀.shapeCasts_S128_S1x128 := by
  show StableHlo.after hostOps0 (W0 m ρ c) (Proc.devRef .tc main_v23) = _
  host_read

/-! ## The first region, and what it leaves alone -/

section Region0
variable (hR0 : ∀ (V : (c : Dev nD) → (b : Ref sig .tc) → Buf (Elt Ideal) ((c : Thread nD τ).loc b)) (c : Dev nD),
    (Gen.dat0 V c).arrAt 5 cfg0.N = hiddenLayer (V c main_v20) (V c main_arg0) (V c main_v21) (V c main_v22) (V c main_v23))
include hR0

/-- The first hidden layer's features, in the first region's output array. -/
theorem W2_v24 (c : Dev nD) : W2 m ρ c (Proc.devRef .tc main_v24) = feat1 (m ((c.tc : Thread nD τ).loc main_arg0)) (m ((c.tc : Thread nD τ).loc main_arg1)) (m ((c.tc : Thread nD τ).loc main_arg3)) (m ((c.tc : Thread nD τ).loc main_arg2)) (m ((c.tc : Thread nD τ).loc main_arg10)) (m ((c.tc : Thread nD τ).loc main_arg11)) := by
  have h : W2 m ρ c (Proc.devRef .tc main_v24) = hiddenLayer (W1 m ρ c (Proc.devRef .tc main_v20)) (W1 m ρ c (Proc.devRef .tc main_arg0)) (W1 m ρ c (Proc.devRef .tc main_v21)) (W1 m ρ c (Proc.devRef .tc main_v22)) (W1 m ρ c (Proc.devRef .tc main_v23)) :=
    (W2_arr m ρ c 5).trans (hR0 (V1 m ρ) c)
  rw [h, W1_v20, W1_arg0, W1_v21, W1_v22, W1_v23]
  rfl

end Region0

theorem W2_arg4 (c : Dev nD) : W2 m ρ c (Proc.devRef .tc main_arg4) = (m ((c.tc : Thread nD τ).loc main_arg4)) :=
  (W2_of_ne m ρ c main_arg4 (by decide)).trans (W1_arg4 m ρ c)
theorem W2_arg5 (c : Dev nD) : W2 m ρ c (Proc.devRef .tc main_arg5) = (m ((c.tc : Thread nD τ).loc main_arg5)) :=
  (W2_of_ne m ρ c main_arg5 (by decide)).trans (W1_arg5 m ρ c)
theorem W2_arg6 (c : Dev nD) : W2 m ρ c (Proc.devRef .tc main_arg6) = (m ((c.tc : Thread nD τ).loc main_arg6)) :=
  (W2_of_ne m ρ c main_arg6 (by decide)).trans (W1_arg6 m ρ c)
theorem W2_arg7 (c : Dev nD) : W2 m ρ c (Proc.devRef .tc main_arg7) = (m ((c.tc : Thread nD τ).loc main_arg7)) :=
  (W2_of_ne m ρ c main_arg7 (by decide)).trans (W1_arg7 m ρ c)
theorem W2_arg8 (c : Dev nD) : W2 m ρ c (Proc.devRef .tc main_arg8) = (m ((c.tc : Thread nD τ).loc main_arg8)) :=
  (W2_of_ne m ρ c main_arg8 (by decide)).trans (W1_arg8 m ρ c)
theorem W2_arg9 (c : Dev nD) : W2 m ρ c (Proc.devRef .tc main_arg9) = (m ((c.tc : Thread nD τ).loc main_arg9)) :=
  (W2_of_ne m ρ c main_arg9 (by decide)).trans (W1_arg9 m ρ c)
theorem W2_arg10 (c : Dev nD) : W2 m ρ c (Proc.devRef .tc main_arg10) = (m ((c.tc : Thread nD τ).loc main_arg10)) :=
  (W2_of_ne m ρ c main_arg10 (by decide)).trans (W1_arg10 m ρ c)
theorem W2_arg11 (c : Dev nD) : W2 m ρ c (Proc.devRef .tc main_arg11) = (m ((c.tc : Thread nD τ).loc main_arg11)) :=
  (W2_of_ne m ρ c main_arg11 (by decide)).trans (W1_arg11 m ρ c)
theorem W2_v8 (c : Dev nD) : W2 m ρ c (Proc.devRef .tc main_v8) = invDeg (F := Ideal) (m ((c.tc : Thread nD τ).loc main_arg11)) :=
  (W2_of_ne m ρ c main_v8 (by decide)).trans (W1_v8 m ρ c)

/-! ## Entering the second region: the second stretch over the first region's exit -/

set_option maxHeartbeats 4000000 in
theorem W3_v36 (c : Dev nD) : W3 m ρ c (Proc.devRef .tc main_v36) = meanAgg (F := Ideal) (W2 m ρ c (Proc.devRef .tc main_v24)) (W2 m ρ c (Proc.devRef .tc main_arg10)) (W2 m ρ c (Proc.devRef .tc main_arg11)) (W2 m ρ c (Proc.devRef .tc main_v8)) := by
  show StableHlo.after hostOps1 (W2 m ρ c) (Proc.devRef .tc main_v36) = _
  host_read
set_option maxHeartbeats 4000000 in
theorem W3_v37 (c : Dev nD) : W3 m ρ c (Proc.devRef .tc main_v37) = transpose S128x128 [1, 0] (W2 m ρ c (Proc.devRef .tc main_arg4)) Facts₀.transposes_S128x128_S128x128_1_0 := by
  show StableHlo.after hostOps1 (W2 m ρ c) (Proc.devRef .tc main_v37) = _
  host_read
set_option maxHeartbeats 4000000 in
theorem W3_v38 (c : Dev nD) : W3 m ρ c (Proc.devRef .tc main_v38) = transpose S128x128 [1, 0] (W2 m ρ c (Proc.devRef .tc main_arg6)) Facts₀.transposes_S128x128_S128x128_1_0 := by
  show StableHlo.after hostOps1 (W2 m ρ c) (Proc.devRef .tc main_v38) = _
  host_read
set_option maxHeartbeats 4000000 in
theorem W3_v39 (c : Dev nD) : W3 m ρ c (Proc.devRef .tc main_v39) = shapeCast S1x128 (W2 m ρ c (Proc.devRef .tc main_arg5)) Facts₀.shapeCasts_S128_S1x128 := by
  show StableHlo.after hostOps1 (W2 m ρ c) (Proc.devRef .tc main_v39) = _
  host_read
theorem W3_v24 (c : Dev nD) : W3 m ρ c (Proc.devRef .tc main_v24) = W2 m ρ c (Proc.devRef .tc main_v24) := by
  show StableHlo.after hostOps1 (W2 m ρ c) (Proc.devRef .tc main_v24) = _
  host_keep
theorem W3_v8 (c : Dev nD) : W3 m ρ c (Proc.devRef .tc main_v8) = W2 m ρ c (Proc.devRef .tc main_v8) := by
  show StableHlo.after hostOps1 (W2 m ρ c) (Proc.devRef .tc main_v8) = _
  host_keep
theorem W3_arg7 (c : Dev nD) : W3 m ρ c (Proc.devRef .tc main_arg7) = W2 m ρ c (Proc.devRef .tc main_arg7) := by
  show StableHlo.after hostOps1 (W2 m ρ c) (Proc.devRef .tc main_arg7) = _
  host_keep
theorem W3_arg8 (c : Dev nD) : W3 m ρ c (Proc.devRef .tc main_arg8) = W2 m ρ c (Proc.devRef .tc main_arg8) := by
  show StableHlo.after hostOps1 (W2 m ρ c) (Proc.devRef .tc main_arg8) = _
  host_keep
theorem W3_arg9 (c : Dev nD) : W3 m ρ c (Proc.devRef .tc main_arg9) = W2 m ρ c (Proc.devRef .tc main_arg9) := by
  show StableHlo.after hostOps1 (W2 m ρ c) (Proc.devRef .tc main_arg9) = _
  host_keep
theorem W3_arg10 (c : Dev nD) : W3 m ρ c (Proc.devRef .tc main_arg10) = W2 m ρ c (Proc.devRef .tc main_arg10) := by
  show StableHlo.after hostOps1 (W2 m ρ c) (Proc.devRef .tc main_arg10) = _
  host_keep
theorem W3_arg11 (c : Dev nD) : W3 m ρ c (Proc.devRef .tc main_arg11) = W2 m ρ c (Proc.devRef .tc main_arg11) := by
  show StableHlo.after hostOps1 (W2 m ρ c) (Proc.devRef .tc main_arg11) = _
  host_keep

/-! ## The second region -/

section Region1
variable (hR0 : ∀ (V : (c : Dev nD) → (b : Ref sig .tc) → Buf (Elt Ideal) ((c : Thread nD τ).loc b)) (c : Dev nD),
    (Gen.dat0 V c).arrAt 5 cfg0.N = hiddenLayer (V c main_v20) (V c main_arg0) (V c main_v21) (V c main_v22) (V c main_v23))
  (hR1 : ∀ (V : (c : Dev nD) → (b : Ref sig .tc) → Buf (Elt Ideal) ((c : Thread nD τ).loc b)) (c : Dev nD),
    (Gen.dat1 V c).arrAt 5 cfg1.N = hiddenLayer (V c main_v36) (V c main_v24) (V c main_v37) (V c main_v38) (V c main_v39))
include hR0 hR1

/-- The second hidden layer's features, in the second region's output array. -/
theorem W4_v40 (c : Dev nD) : W4 m ρ c (Proc.devRef .tc main_v40)
    = feat2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg2)) (m ((c.tc : Thread nD τ).loc main_arg5)) (m ((c.tc : Thread nD τ).loc main_arg10)) (m ((c.tc : Thread nD τ).loc main_arg11)) := by
  have h : W4 m ρ c (Proc.devRef .tc main_v40) = hiddenLayer (W3 m ρ c (Proc.devRef .tc main_v36)) (W3 m ρ c (Proc.devRef .tc main_v24)) (W3 m ρ c (Proc.devRef .tc main_v37)) (W3 m ρ c (Proc.devRef .tc main_v38)) (W3 m ρ c (Proc.devRef .tc main_v39)) :=
    (W4_arr m ρ c 5).trans (hR1 (V3 m ρ) c)
  rw [h, W3_v36, W3_v24, W3_v37, W3_v38, W3_v39, W2_v24 m ρ hR0, W2_arg10, W2_arg11, W2_v8, W2_arg4, W2_arg6, W2_arg5]
  rfl

end Region1

theorem W4_arg7 (c : Dev nD) : W4 m ρ c (Proc.devRef .tc main_arg7) = (m ((c.tc : Thread nD τ).loc main_arg7)) :=
  (W4_of_ne m ρ c main_arg7 (by decide)).trans ((W3_arg7 m ρ c).trans (W2_arg7 m ρ c))
theorem W4_arg8 (c : Dev nD) : W4 m ρ c (Proc.devRef .tc main_arg8) = (m ((c.tc : Thread nD τ).loc main_arg8)) :=
  (W4_of_ne m ρ c main_arg8 (by decide)).trans ((W3_arg8 m ρ c).trans (W2_arg8 m ρ c))
theorem W4_arg9 (c : Dev nD) : W4 m ρ c (Proc.devRef .tc main_arg9) = (m ((c.tc : Thread nD τ).loc main_arg9)) :=
  (W4_of_ne m ρ c main_arg9 (by decide)).trans ((W3_arg9 m ρ c).trans (W2_arg9 m ρ c))
theorem W4_arg10 (c : Dev nD) : W4 m ρ c (Proc.devRef .tc main_arg10) = (m ((c.tc : Thread nD τ).loc main_arg10)) :=
  (W4_of_ne m ρ c main_arg10 (by decide)).trans ((W3_arg10 m ρ c).trans (W2_arg10 m ρ c))
theorem W4_arg11 (c : Dev nD) : W4 m ρ c (Proc.devRef .tc main_arg11) = (m ((c.tc : Thread nD τ).loc main_arg11)) :=
  (W4_of_ne m ρ c main_arg11 (by decide)).trans ((W3_arg11 m ρ c).trans (W2_arg11 m ρ c))
theorem W4_v8 (c : Dev nD) : W4 m ρ c (Proc.devRef .tc main_v8) = invDeg (F := Ideal) (m ((c.tc : Thread nD τ).loc main_arg11)) :=
  (W4_of_ne m ρ c main_v8 (by decide)).trans ((W3_v8 m ρ c).trans (W2_v8 m ρ c))

/-! ## Entering the last region: the third stretch over the second region's exit -/

set_option maxHeartbeats 4000000 in
theorem W5_v52 (c : Dev nD) : W5 m ρ c (Proc.devRef .tc main_v52) = meanAgg (F := Ideal) (W4 m ρ c (Proc.devRef .tc main_v40)) (W4 m ρ c (Proc.devRef .tc main_arg10)) (W4 m ρ c (Proc.devRef .tc main_arg11)) (W4 m ρ c (Proc.devRef .tc main_v8)) := by
  show StableHlo.after hostOps2 (W4 m ρ c) (Proc.devRef .tc main_v52) = _
  host_read
set_option maxHeartbeats 4000000 in
theorem W5_v53 (c : Dev nD) : W5 m ρ c (Proc.devRef .tc main_v53) = transpose S128x2 [1, 0] (W4 m ρ c (Proc.devRef .tc main_arg7)) Facts₀.transposes_S2x128_S128x2_1_0 := by
  show StableHlo.after hostOps2 (W4 m ρ c) (Proc.devRef .tc main_v53) = _
  host_read
set_option maxHeartbeats 4000000 in
theorem W5_v54 (c : Dev nD) : W5 m ρ c (Proc.devRef .tc main_v54) = transpose S128x2 [1, 0] (W4 m ρ c (Proc.devRef .tc main_arg9)) Facts₀.transposes_S2x128_S128x2_1_0 := by
  show StableHlo.after hostOps2 (W4 m ρ c) (Proc.devRef .tc main_v54) = _
  host_read
set_option maxHeartbeats 4000000 in
theorem W5_v55 (c : Dev nD) : W5 m ρ c (Proc.devRef .tc main_v55) = shapeCast S1x2 (W4 m ρ c (Proc.devRef .tc main_arg8)) Facts₀.shapeCasts_S2_S1x2 := by
  show StableHlo.after hostOps2 (W4 m ρ c) (Proc.devRef .tc main_v55) = _
  host_read
theorem W5_v40 (c : Dev nD) : W5 m ρ c (Proc.devRef .tc main_v40) = W4 m ρ c (Proc.devRef .tc main_v40) := by
  show StableHlo.after hostOps2 (W4 m ρ c) (Proc.devRef .tc main_v40) = _
  host_keep

/-! ## The last region: the result -/

section Region2
variable (hR0 : ∀ (V : (c : Dev nD) → (b : Ref sig .tc) → Buf (Elt Ideal) ((c : Thread nD τ).loc b)) (c : Dev nD),
    (Gen.dat0 V c).arrAt 5 cfg0.N = hiddenLayer (V c main_v20) (V c main_arg0) (V c main_v21) (V c main_v22) (V c main_v23))
  (hR1 : ∀ (V : (c : Dev nD) → (b : Ref sig .tc) → Buf (Elt Ideal) ((c : Thread nD τ).loc b)) (c : Dev nD),
    (Gen.dat1 V c).arrAt 5 cfg1.N = hiddenLayer (V c main_v36) (V c main_v24) (V c main_v37) (V c main_v38) (V c main_v39))
  (hR2 : ∀ (V : (c : Dev nD) → (b : Ref sig .tc) → Buf (Elt Ideal) ((c : Thread nD τ).loc b)) (c : Dev nD),
    (Gen.dat2 V c).arrAt 5 cfg2.N = outLayer (V c main_v52) (V c main_v40) (V c main_v53) (V c main_v54) (V c main_v55))
include hR0 hR1 hR2

/-- The result buffer at the last boundary: the network's output on the twelve arguments. -/
theorem kernel_value (c : Dev nD) : W6 m ρ c (Proc.devRef .tc main_v56)
    = net (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg2)) (m ((c.tc : Thread nD τ).loc main_arg5)) (m ((c.tc : Thread nD τ).loc main_arg7)) (m ((c.tc : Thread nD τ).loc main_arg9)) (m ((c.tc : Thread nD τ).loc main_arg8)) (m ((c.tc : Thread nD τ).loc main_arg10)) (m ((c.tc : Thread nD τ).loc main_arg11)) := by
  have h : W6 m ρ c (Proc.devRef .tc main_v56) = outLayer (W5 m ρ c (Proc.devRef .tc main_v52)) (W5 m ρ c (Proc.devRef .tc main_v40)) (W5 m ρ c (Proc.devRef .tc main_v53)) (W5 m ρ c (Proc.devRef .tc main_v54)) (W5 m ρ c (Proc.devRef .tc main_v55)) :=
    (W6_arr m ρ c 5).trans (hR2 (V5 m ρ) c)
  rw [h, W5_v52, W5_v40, W5_v53, W5_v54, W5_v55, W4_v40 m ρ hR0 hR1, W4_arg10, W4_arg11, W4_v8, W4_arg7, W4_arg9, W4_arg8]
  rfl

end Region2

end Cert.KernelIdeal.Sage

end
-- ==== Proof.KPay.lean ====
/-
  The hidden-layer kernels' stored value, entry by entry, on the extended reals.

  Both dense kernels of the hidden layers store, for a block of 5000 rows, the positive part of
      x0·wl + x1·wr + (the bias row repeated down the block).
  On the extended reals the narrowing to bf16 is the identity, a shape cast to the same shape is the identity, and a
  matrix product accumulated into zero is the plain sum over the contracted axis; so entry (p, q) of the stored block is
      max ((Σ_k x0[p,k]·wl[k,q] + Σ_k x1[p,k]·wr[k,q]) + b[0,q], 0).
-/
import proofs.«178284_j81870666596807_1_alg».proof.Proof.Gen.KernelIdeal.Skeleton
import proofs.«178284_j81870666596807_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Dims

noncomputable section

namespace Cert.KernelIdeal.Sage

open Cert.KernelIdeal Cert.KernelIdeal.Gen Idealize.ShloMosaic Idealize.ShloMosaic.TcCoe Idealize.ShloMosaic.ValueIdx
open Cert.KernelIdeal.Facts₀ Cert.KernelIdeal.Facts
open scoped BigOperators

/-! ## The product's operand indices, axis by axis

For the [5000,128] × [128,128] product (left axis 1 contracted with right axis 0) the left operand is read at
(row of the output, contraction position) and the right at (contraction position, column of the output). -/

/-- The left operand's row is the output's row. -/
theorem lhs_dense_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
theorem lhs_dense_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contraction position. -/
theorem rhs_dense_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column is the output's column. -/
theorem rhs_dense_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix product accumulated into zero, at entry (p, q): the sum over the 128 contraction positions. -/
theorem matmul_zero_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_dense_0 _ _
      | ⟨1, _⟩ => exact (lhs_dense_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_dense_0 _ _).trans hk
      | ⟨1, _⟩ => exact rhs_dense_1 _ _)
  rw [el, er]

/-- Entry (p, q) of the value as a function of the five loaded blocks: the dense step's entry, cut below at zero. -/
def denseEntry (x0 x1 : Vec Ideal S5000x128 .f32) (wl wr : Vec Ideal S128x128 .f32) (b : Vec Ideal S1x128 .f32)
    (p : Fin 5000) (q : Fin 128) : EReal :=
  max (((∑ k : Fin 128, x0 (ix2 p k) * wl (ix2 k q)) + (∑ k : Fin 128, x1 (ix2 p k) * wr (ix2 k q))) + b (ix2 (0 : Fin 1) q)) 0

/-- The first hidden layer's stored block at (p, q). -/
theorem k0_pay1_apply (x0 x1 : Vec Ideal S5000x128 .f32) (wl wr : Vec Ideal S128x128 .f32) (b : Vec Ideal S1x128 .f32)
    (p : Fin 5000) (q : Fin 128) :
    (k0_pay1 (F := Ideal)) x0 x1 wl wr b (ix2 p q) = denseEntry x0 x1 wl wr b p q := by
  unfold k0_pay1 denseEntry
  simp only [shapeCast_self]
  rw [maximumf_apply, addf_apply, addf_apply, matmul_zero_apply, matmul_zero_apply, broadcastTo_1b_ab_apply, broadcast_apply]
  show max _ (Ideal.ofBits .f32 0x00000000#32) = _
  rw [Ideal.ofBits_zero_f32]
  rfl

/-- The second hidden layer's stored block at (p, q): the same entry. -/
theorem k1_pay1_apply (x0 x1 : Vec Ideal S5000x128 .f32) (wl wr : Vec Ideal S128x128 .f32) (b : Vec Ideal S1x128 .f32)
    (p : Fin 5000) (q : Fin 128) :
    (k1_pay1 (F := Ideal)) x0 x1 wl wr b (ix2 p q) = denseEntry x0 x1 wl wr b p q := by
  unfold k1_pay1 denseEntry
  simp only [shapeCast_self]
  rw [maximumf_apply, addf_apply, addf_apply, matmul_zero_apply, matmul_zero_apply, broadcastTo_1b_ab_apply, broadcast_apply]
  show max _ (Ideal.ofBits .f32 0x00000000#32) = _
  rw [Ideal.ofBits_zero_f32]
  rfl

end Cert.KernelIdeal.Sage

end
-- ==== Proof.KRegion0.lean ====
/-
  The first hidden layer's kernel region, from blocks to the whole array.

  The region runs over 20 grid points. At point t the kernel is handed rows 5000·t … 5000·t + 4999 of the neighbour
  means and of the features, and the whole of the two weight matrices and of the bias row; it stores one block of 5000
  rows, which is written back to rows 5000·t … 5000·t + 4999 of the output array. Entry (p, q) of the stored block is
  the dense step's entry cut below at zero, so block t is rows 5000·t … of `hiddenLayer` of the arrays as the region
  finds them; the 20 blocks tile the 100000 rows (row r lies in block r / 5000), so the output array ends holding
  `hiddenLayer` of the entry arrays.
-/
import proofs.«178284_j81870666596807_1_alg».proof.Proof.Gen.KernelIdeal.Frame
import proofs.«178284_j81870666596807_1_alg».proof.Proof.KPay
import Idealize.ShloMosaic.Lib.Pipeline.Value

set_option maxRecDepth 16384

noncomputable section

namespace Cert.KernelIdeal.Sage

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Facts₀ Cert.KernelIdeal.Facts
open scoped BigOperators

variable (V : (c : Dev nD) → (b : Ref sig .tc) → Buf (Elt Ideal) ((c : Thread nD τ).loc b))

/-- The offsets of the kernel's loads and of its store are zero on both axes. -/
theorem zero_offsets0 : (![0, 0] : Fin 2 → Nat) = fun _ => 0 := funext fun a => by fin_cases a <;> rfl

/-- The six index maps over the grid: the two row-blocked inputs and the output sit at block (t, 0); the two weight
    matrices and the bias row at block (0, 0). -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block, read at coordinates -/

/-- Row p of the neighbour means' block at point t is row 5000·t + p of the array. -/
theorem means_block0 (c : Dev nD) (t : Fin cfg0.N) (p : Fin 5000) (k : Fin 128) (r : Fin 100000)
    (hr : r.val = t.val * 5000 + p.val) :
    (iblk0 V c 0 t : Vec Ideal S5000x128 .f32) (ix2 p k) = (V c main_v20 : FVec Ideal S100000x128 .f32) (ix2 r k) := by
  obtain ⟨e0, e1, -⟩ := index_facts0 t
  unfold iblk0
  rw [View.read_apply]
  show V c main_v20 _ = V c main_v20 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row p of the features' block at point t is row 5000·t + p of the array. -/
theorem feats_block0 (c : Dev nD) (t : Fin cfg0.N) (p : Fin 5000) (k : Fin 128) (r : Fin 100000)
    (hr : r.val = t.val * 5000 + p.val) :
    (iblk0 V c 1 t : Vec Ideal S5000x128 .f32) (ix2 p k) = (V c main_arg0 : FVec Ideal S100000x128 .f32) (ix2 r k) := by
  obtain ⟨-, -, e0, e1, -⟩ := index_facts0 t
  unfold iblk0
  rw [View.read_apply]
  show V c main_arg0 _ = V c main_arg0 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The left weights' block at every point is the whole matrix. -/
theorem wl_block0 (c : Dev nD) (t : Fin cfg0.N) (k q : Fin 128) :
    (iblk0 V c 2 t : Vec Ideal S128x128 .f32) (ix2 k q) = (V c main_v21 : FVec Ideal S128x128 .f32) (ix2 k q) := by
  obtain ⟨-, -, -, -, e0, e1, -⟩ := index_facts0 t
  unfold iblk0
  rw [View.read_apply]
  show V c main_v21 _ = V c main_v21 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias row's block at every point is the whole row. -/
theorem bias_block0 (c : Dev nD) (t : Fin cfg0.N) (q : Fin 128) :
    (iblk0 V c 3 t : Vec Ideal S1x128 .f32) (ix2 (0 : Fin 1) q) = (V c main_v23 : FVec Ideal S1x128 .f32) (ix2 (0 : Fin 1) q) := by
  obtain ⟨-, -, -, -, -, -, e0, e1, -⟩ := index_facts0 t
  unfold iblk0
  rw [View.read_apply]
  show V c main_v23 _ = V c main_v23 _
  congr 1
  funext a
  apply Fin.ext
  match a with
  | ⟨0, _⟩ => show win0_3.index t (0 : Fin 2) * 1 + 1 * 0 = 0; rw [e0]
  | ⟨1, _⟩ => show win0_3.index t (1 : Fin 2) * 128 + 1 * q.val = q.val; rw [e1]; omega

/-- The right weights' block at every point is the whole matrix. -/
theorem wr_block0 (c : Dev nD) (t : Fin cfg0.N) (k q : Fin 128) :
    (iblk0 V c 4 t : Vec Ideal S128x128 .f32) (ix2 k q) = (V c main_v22 : FVec Ideal S128x128 .f32) (ix2 k q) := by
  obtain ⟨-, -, -, -, -, -, -, -, e0, e1, -⟩ := index_facts0 t
  unfold iblk0
  rw [View.read_apply]
  show V c main_v22 _ = V c main_v22 _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-! ## One stored entry is one entry of the layer -/

/-- The stored block at y is the layer at i, when the row-blocked inputs' row of y is the arrays' row of i, the
    weights and the bias are the arrays', and y and i have the same column. -/
theorem stored_entry0 (x0 x1 : Vec Ideal S5000x128 .f32) (wl wr : Vec Ideal S128x128 .f32) (b : Vec Ideal S1x128 .f32)
    (A H : FVec Ideal S100000x128 .f32) (Wl Wr : FVec Ideal S128x128 .f32) (B : FVec Ideal S1x128 .f32)
    (y : S5000x128.Idx) (i : S100000x128.Idx)
    (h0 : ∀ k : Fin 128, x0 (ix2 (y 0) k) = A (ix2 (i 0) k))
    (h1 : ∀ k : Fin 128, x1 (ix2 (y 0) k) = H (ix2 (i 0) k))
    (hl : ∀ k q : Fin 128, wl (ix2 k q) = Wl (ix2 k q))
    (hr : ∀ k q : Fin 128, wr (ix2 k q) = Wr (ix2 k q))
    (hb : ∀ q : Fin 128, b (ix2 (0 : Fin 1) q) = B (ix2 (0 : Fin 1) q))
    (hq : (i 1).val = (y 1).val) :
    (k0_pay1 (F := Ideal)) x0 x1 wl wr b y = Cert.Sage.hiddenLayer A H Wl Wr B i := by
  refine (congrArg ((k0_pay1 (F := Ideal)) x0 x1 wl wr b) (eq_ix2 y)).trans ((k0_pay1_apply x0 x1 wl wr b (y 0) (y 1)).trans ?_)
  have hq' : (i 1 : Fin 128) = y 1 := Fin.ext hq
  unfold denseEntry Cert.Sage.hiddenLayer Cert.Sage.lin128
  have el : ∀ k : Fin 128, wl (ix2 k (y 1)) = Wl (ix2 k (y 1)) := fun k => hl k (y 1)
  have er : ∀ k : Fin 128, wr (ix2 k (y 1)) = Wr (ix2 k (y 1)) := fun k => hr k (y 1)
  have eb : b (ix2 (0 : Fin 1) (y 1)) = B (ix2 (0 : Fin 1) (y 1)) := hb (y 1)
  simp only [h0, h1, el, er, eb, hq']

/-! ## What each point writes back -/

/-- Point t writes back block t of the layer of the arrays as the region finds them. -/
theorem flushed0_eq (c : Dev nD) (t : Fin cfg0.N) :
    (dat0 V c).flushed 5 t = ((cfg0.win 5).blk t).view.read (Elt Ideal)
      (Cert.Sage.hiddenLayer (V c main_v20) (V c main_arg0) (V c main_v21) (V c main_v22) (V c main_v23)) := by
  show (cfg0.win 5).cut (grid0.coords t) ((dat0 V c).after 5 t) = _
  rw [after0_5]
  unfold out0_5
  rw [View.canon_unit_zero zero_offsets0]
  simp only [View.ld_unit_zero (S := S5000x128) zero_offsets0, View.ld_unit_zero (S := S128x128) zero_offsets0,
    View.ld_unit_zero (S := S1x128) zero_offsets0]
  obtain ⟨-, -, -, -, -, -, -, -, -, -, e0, e1⟩ := index_facts0 t
  funext y
  have r0 : ((((cfg0.win 5).blk t).view.emb y) 0).val = t.val * 5000 + (y 0).val := by
    show win0_5.index t (0 : Fin 2) * 5000 + 1 * (y 0).val = _
    rw [e0]; omega
  have r1 : ((((cfg0.win 5).blk t).view.emb y) 1).val = (y 1).val := by
    show win0_5.index t (1 : Fin 2) * 128 + 1 * (y 1).val = _
    rw [e1]; omega
  exact stored_entry0 _ _ _ _ _ _ _ _ _ _ y (((cfg0.win 5).blk t).view.emb y)
    (fun k => means_block0 V c t (y 0) k _ r0) (fun k => feats_block0 V c t (y 0) k _ r0)
    (fun k q => wl_block0 V c t k q) (fun k q => wr_block0 V c t k q) (fun q => bias_block0 V c t q) r1

/-! ## The blocks tile the array -/

/-- An index of the array is in point t's block iff each coordinate is in the block's range on its axis. -/
theorem mem_block0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Every row r of the array lies in the block of point r / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e0, e1⟩ := index_facts0 ⟨(i 0).val / 5000, ht⟩
  refine ⟨⟨(i 0).val / 5000, ht⟩, flush0_5 _, ?_⟩
  rw [mem_block0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]
    omega

/-! ## The array after the region -/

/-- After the region's 20 write-backs the output array holds the layer of the arrays as the region found them. -/
theorem region0_value (c : Dev nD) :
    (Gen.dat0 V c).arrAt 5 cfg0.N
      = Cert.Sage.hiddenLayer (V c main_v20) (V c main_arg0) (V c main_v21) (V c main_v22) (V c main_v23) :=
  (Gen.dat0 V c).arrAt_eq_of_cover 5 (Cert.Sage.hiddenLayer (V c main_v20) (V c main_arg0) (V c main_v21) (V c main_v22) (V c main_v23))
    (fun t _ => flushed0_eq V c t) cover0

end Cert.KernelIdeal.Sage

end
-- ==== Proof.KRegion1.lean ====
/-
  The second hidden layer's kernel region, from blocks to the whole array.

  The region runs over 20 grid points. At point t the kernel is handed rows 5000·t … 5000·t + 4999 of the neighbour
  means and of the features, and the whole of the two weight matrices and of the bias row; it stores one block of 5000
  rows, which is written back to rows 5000·t … 5000·t + 4999 of the output array. Entry (p, q) of the stored block is
  the dense step's entry cut below at zero, so block t is rows 5000·t … of `hiddenLayer` of the arrays as the region
  finds them; the 20 blocks tile the 100000 rows (row r lies in block r / 5000), so the output array ends holding
  `hiddenLayer` of the entry arrays.
-/
import proofs.«178284_j81870666596807_1_alg».proof.Proof.Gen.KernelIdeal.Frame
import proofs.«178284_j81870666596807_1_alg».proof.Proof.KPay
import Idealize.ShloMosaic.Lib.Pipeline.Value

set_option maxRecDepth 16384

noncomputable section

namespace Cert.KernelIdeal.Sage

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Facts₀ Cert.KernelIdeal.Facts
open scoped BigOperators

variable (V : (c : Dev nD) → (b : Ref sig .tc) → Buf (Elt Ideal) ((c : Thread nD τ).loc b))

/-- The offsets of the kernel's loads and of its store are zero on both axes. -/
theorem zero_offsets1 : (![0, 0] : Fin 2 → Nat) = fun _ => 0 := funext fun a => by fin_cases a <;> rfl

/-- The six index maps over the grid: the two row-blocked inputs and the output sit at block (t, 0); the two weight
    matrices and the bias row at block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each input block, read at coordinates -/

/-- Row p of the neighbour means' block at point t is row 5000·t + p of the array. -/
theorem means_block1 (c : Dev nD) (t : Fin cfg1.N) (p : Fin 5000) (k : Fin 128) (r : Fin 100000)
    (hr : r.val = t.val * 5000 + p.val) :
    (iblk1 V c 0 t : Vec Ideal S5000x128 .f32) (ix2 p k) = (V c main_v36 : FVec Ideal S100000x128 .f32) (ix2 r k) := by
  obtain ⟨e0, e1, -⟩ := index_facts1 t
  unfold iblk1
  rw [View.read_apply]
  show V c main_v36 _ = V c main_v36 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of the features' block at point t is row 5000·t + p of the array. -/
theorem feats_block1 (c : Dev nD) (t : Fin cfg1.N) (p : Fin 5000) (k : Fin 128) (r : Fin 100000)
    (hr : r.val = t.val * 5000 + p.val) :
    (iblk1 V c 1 t : Vec Ideal S5000x128 .f32) (ix2 p k) = (V c main_v24 : FVec Ideal S100000x128 .f32) (ix2 r k) := by
  obtain ⟨-, -, e0, e1, -⟩ := index_facts1 t
  unfold iblk1
  rw [View.read_apply]
  show V c main_v24 _ = V c main_v24 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The left weights' block at every point is the whole matrix. -/
theorem wl_block1 (c : Dev nD) (t : Fin cfg1.N) (k q : Fin 128) :
    (iblk1 V c 2 t : Vec Ideal S128x128 .f32) (ix2 k q) = (V c main_v37 : FVec Ideal S128x128 .f32) (ix2 k q) := by
  obtain ⟨-, -, -, -, e0, e1, -⟩ := index_facts1 t
  unfold iblk1
  rw [View.read_apply]
  show V c main_v37 _ = V c main_v37 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias row's block at every point is the whole row. -/
theorem bias_block1 (c : Dev nD) (t : Fin cfg1.N) (q : Fin 128) :
    (iblk1 V c 3 t : Vec Ideal S1x128 .f32) (ix2 (0 : Fin 1) q) = (V c main_v39 : FVec Ideal S1x128 .f32) (ix2 (0 : Fin 1) q) := by
  obtain ⟨-, -, -, -, -, -, e0, e1, -⟩ := index_facts1 t
  unfold iblk1
  rw [View.read_apply]
  show V c main_v39 _ = V c main_v39 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- The right weights' block at every point is the whole matrix. -/
theorem wr_block1 (c : Dev nD) (t : Fin cfg1.N) (k q : Fin 128) :
    (iblk1 V c 4 t : Vec Ideal S128x128 .f32) (ix2 k q) = (V c main_v38 : FVec Ideal S128x128 .f32) (ix2 k q) := by
  obtain ⟨-, -, -, -, -, -, -, -, e0, e1, -⟩ := index_facts1 t
  unfold iblk1
  rw [View.read_apply]
  show V c main_v38 _ = V c main_v38 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-! ## One stored entry is one entry of the layer -/

/-- The stored block at y is the layer at i, when the row-blocked inputs' row of y is the arrays' row of i, the
    weights and the bias are the arrays', and y and i have the same column. -/
theorem stored_entry1 (x0 x1 : Vec Ideal S5000x128 .f32) (wl wr : Vec Ideal S128x128 .f32) (b : Vec Ideal S1x128 .f32)
    (A H : FVec Ideal S100000x128 .f32) (Wl Wr : FVec Ideal S128x128 .f32) (B : FVec Ideal S1x128 .f32)
    (y : S5000x128.Idx) (i : S100000x128.Idx)
    (h0 : ∀ k : Fin 128, x0 (ix2 (y 0) k) = A (ix2 (i 0) k))
    (h1 : ∀ k : Fin 128, x1 (ix2 (y 0) k) = H (ix2 (i 0) k))
    (hl : ∀ k q : Fin 128, wl (ix2 k q) = Wl (ix2 k q))
    (hr : ∀ k q : Fin 128, wr (ix2 k q) = Wr (ix2 k q))
    (hb : ∀ q : Fin 128, b (ix2 (0 : Fin 1) q) = B (ix2 (0 : Fin 1) q))
    (hq : (i 1).val = (y 1).val) :
    (k1_pay1 (F := Ideal)) x0 x1 wl wr b y = Cert.Sage.hiddenLayer A H Wl Wr B i := by
  refine (congrArg ((k1_pay1 (F := Ideal)) x0 x1 wl wr b) (eq_ix2 y)).trans ((k1_pay1_apply x0 x1 wl wr b (y 0) (y 1)).trans ?_)
  have hq' : (i 1 : Fin 128) = y 1 := Fin.ext hq
  unfold denseEntry Cert.Sage.hiddenLayer Cert.Sage.lin128
  have el : ∀ k : Fin 128, wl (ix2 k (y 1)) = Wl (ix2 k (y 1)) := fun k => hl k (y 1)
  have er : ∀ k : Fin 128, wr (ix2 k (y 1)) = Wr (ix2 k (y 1)) := fun k => hr k (y 1)
  have eb : b (ix2 (0 : Fin 1) (y 1)) = B (ix2 (0 : Fin 1) (y 1)) := hb (y 1)
  simp only [h0, h1, el, er, eb, hq']

/-! ## What each point writes back -/

/-- Point t writes back block t of the layer of the arrays as the region finds them. -/
theorem flushed1_eq (c : Dev nD) (t : Fin cfg1.N) :
    (dat1 V c).flushed 5 t = ((cfg1.win 5).blk t).view.read (Elt Ideal)
      (Cert.Sage.hiddenLayer (V c main_v36) (V c main_v24) (V c main_v37) (V c main_v38) (V c main_v39)) := by
  show (cfg1.win 5).cut (grid1.coords t) ((dat1 V c).after 5 t) = _
  rw [after1_5]
  unfold out1_5
  rw [View.canon_unit_zero zero_offsets1]
  simp only [View.ld_unit_zero (S := S5000x128) zero_offsets1, View.ld_unit_zero (S := S128x128) zero_offsets1,
    View.ld_unit_zero (S := S1x128) zero_offsets1]
  obtain ⟨-, -, -, -, -, -, -, -, -, -, e0, e1⟩ := index_facts1 t
  funext y
  have r0 : ((((cfg1.win 5).blk t).view.emb y) 0).val = t.val * 5000 + (y 0).val := by
    show win1_5.index t (0 : Fin 2) * 5000 + 1 * (y 0).val = _
    rw [e0]; omega
  have r1 : ((((cfg1.win 5).blk t).view.emb y) 1).val = (y 1).val := by
    show win1_5.index t (1 : Fin 2) * 128 + 1 * (y 1).val = _
    rw [e1]; omega
  exact stored_entry1 _ _ _ _ _ _ _ _ _ _ y (((cfg1.win 5).blk t).view.emb y)
    (fun k => means_block1 V c t (y 0) k _ r0) (fun k => feats_block1 V c t (y 0) k _ r0)
    (fun k q => wl_block1 V c t k q) (fun k q => wr_block1 V c t k q) (fun q => bias_block1 V c t q) r1

/-! ## The blocks tile the array -/

/-- An index of the array is in point t's block iff each coordinate is in the block's range on its axis. -/
theorem mem_block1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- Every row r of the array lies in the block of point r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, e0, e1⟩ := index_facts1 ⟨(i 0).val / 5000, ht⟩
  refine ⟨⟨(i 0).val / 5000, ht⟩, flush1_5 _, ?_⟩
  rw [mem_block1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]
    omega

/-! ## The array after the region -/

/-- After the region's 20 write-backs the output array holds the layer of the arrays as the region found them. -/
theorem region1_value (c : Dev nD) :
    (Gen.dat1 V c).arrAt 5 cfg1.N
      = Cert.Sage.hiddenLayer (V c main_v36) (V c main_v24) (V c main_v37) (V c main_v38) (V c main_v39) :=
  (Gen.dat1 V c).arrAt_eq_of_cover 5 (Cert.Sage.hiddenLayer (V c main_v36) (V c main_v24) (V c main_v37) (V c main_v38) (V c main_v39))
    (fun t _ => flushed1_eq V c t) cover1

end Cert.KernelIdeal.Sage

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KPay2.lean ====
/-
  The last layer's body at one entry of a block of 5000 rows.

  With the two loaded blocks `x0`, `x1` ([5000, 128]), the weights `wl`, `wr` ([128, 2]) and the bias row `b` ([1, 2]),
  the body forms  z[p,q] = (Σ_k x0[p,k]·wl[k,q] + Σ_k x1[p,k]·wr[k,q]) + b[0,q]  (`linBlk`: a product into the zero
  splat is the plain sum over the one contracted axis; the format changes and same-shape casts are the identity on
  the extended reals), takes each row's maximum M_p as a fold from the float −∞, and stores
      (z[p,q] − M_p) − log Σ_{k<2} exp (z[p,k] − M_p),
  which is the log-softmax of row p of z at q (`Cert.Sage.logSoftmaxRow`).
-/
import proofs.«178284_j81870666596807_1_alg».proof.Proof.Gen.KernelIdeal.Skeleton
import proofs.«178284_j81870666596807_1_alg».proof.Proof.Spec
import proofs.«178284_j81870666596807_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Sage

open Cert.KernelIdeal Cert.KernelIdeal.Gen Idealize.ShloMosaic Idealize.ShloMosaic.ValueIdx
open scoped BigOperators

/-! ## The contraction [5000, 128] × [128, 2] at an entry -/

/-- The left operand's row coordinate at output entry `i` is `i`'s row (the left operand's free axis). -/
theorem lhs_dot2_0 (i : S5000x2.Idx) (k : dot_S5000x128_S128x2_S5000x2_1_0_0_1_n_n.contr.Idx) :
    (dot_S5000x128_S128x2_S5000x2_1_0_0_1_n_n.lhsIdx i k 0).val = (i 0).val := by
  unfold DotDims.lhsIdx
  rw [dif_neg (show ¬(0 : Fin S5000x128.rank) ∈ dot_S5000x128_S128x2_S5000x2_1_0_0_1_n_n.lhsBatch by decide),
    dif_pos (show (0 : Fin S5000x128.rank) ∈ dot_S5000x128_S128x2_S5000x2_1_0_0_1_n_n.lhsNonContracting by decide)]
  rfl

/-- The left operand's column coordinate is the contraction coordinate. -/
theorem lhs_dot2_1 (i : S5000x2.Idx) (k : dot_S5000x128_S128x2_S5000x2_1_0_0_1_n_n.contr.Idx) :
    (dot_S5000x128_S128x2_S5000x2_1_0_0_1_n_n.lhsIdx i k 1).val = (k ⟨0, by decide⟩).val :=
  dot_S5000x128_S128x2_S5000x2_1_0_0_1_n_n.lhsIdx_val_of_single rfl i k

/-- The right operand's row coordinate is the contraction coordinate. -/
theorem rhs_dot2_0 (i : S5000x2.Idx) (k : dot_S5000x128_S128x2_S5000x2_1_0_0_1_n_n.contr.Idx) :
    (dot_S5000x128_S128x2_S5000x2_1_0_0_1_n_n.rhsIdx i k 0).val = (k ⟨0, by decide⟩).val :=
  dot_S5000x128_S128x2_S5000x2_1_0_0_1_n_n.rhsIdx_val_of_single rfl i k

/-- The right operand's column coordinate at output entry `i` is `i`'s column (the right operand's free axis). -/
theorem rhs_dot2_1 (i : S5000x2.Idx) (k : dot_S5000x128_S128x2_S5000x2_1_0_0_1_n_n.contr.Idx) :
    (dot_S5000x128_S128x2_S5000x2_1_0_0_1_n_n.rhsIdx i k 1).val = (i 1).val := by
  unfold DotDims.rhsIdx
  rw [dif_neg (show ¬(1 : Fin S128x2.rank) ∈ dot_S5000x128_S128x2_S5000x2_1_0_0_1_n_n.rhsBatch by decide),
    dif_pos (show (1 : Fin S128x2.rank) ∈ dot_S5000x128_S128x2_S5000x2_1_0_0_1_n_n.rhsNonContracting by decide)]
  rfl

/-- The product into the zero splat, at entry (p, q): Σ_k x[p,k]·w[k,q] over the 128 contracted coordinates. -/
theorem matmul2_apply {φ₁ φ₂ : FTy} (x : FVec Ideal S5000x128 φ₁) (w : FVec Ideal S128x2 φ₂) (p : Fin 5000) (q : Fin 2) :
    matmul dot_S5000x128_S128x2_S5000x2_1_0_0_1_n_n none x w (constant (F := Ideal) S5000x2 .f32 0x00000000#32) (ix2 p q)
      = ∑ k : Fin 128, x (ix2 p k) * w (ix2 k q) := by
  simp only [matmul]
  rw [Ideal.matmul_constant_zero_apply, ← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 p q) ((contrEquiv1 dot_S5000x128_S128x2_S5000x2_1_0_0_1_n_n 128 rfl rfl).symm k) = ix2 p k :=
    funext fun a => Fin.ext (by
      match a with
      | ⟨0, _⟩ => exact lhs_dot2_0 _ _
      | ⟨1, _⟩ => exact (lhs_dot2_1 _ _).trans hk)
  have er : dot_S5000x128_S128x2_S5000x2_1_0_0_1_n_n.rhsIdx (ix2 p q) ((contrEquiv1 dot_S5000x128_S128x2_S5000x2_1_0_0_1_n_n 128 rfl rfl).symm k) = ix2 k q :=
    funext fun a => Fin.ext (by
      match a with
      | ⟨0, _⟩ => exact (rhs_dot2_0 _ _).trans hk
      | ⟨1, _⟩ => exact rhs_dot2_1 _ _)
  rw [el, er]

/-! ## The row maximum, the row sum, and the column they leave, at an entry -/

/-- The lane maximum of row `p`: the fold of `max` from the float −∞ over the row's two entries. -/
theorem rowMax_apply (z : FVec Ideal S5000x2 .f32) (h : S5000x2.Reduces [1] S5000) (hφ : FKind.Formats FTy.f32)
    (hacc : (0xFF800000#32 : BitVec FTy.f32.bits) = FKind.maximumf.neutral .f32 hφ) (p : Fin 5000) :
    multiReduction (F := Ideal) .maximumf [1] S5000 z 0xFF800000#32 h hφ hacc (ix1 p) = Cert.Sage.rowMax (fun q => z (ix2 p q)) := by
  refine (Ideal.multiReduction_maximumf_single z 0xFF800000#32 h hφ hacc (ix1 p)).trans ?_
  show (Finset.univ : Finset (Fin 2)).fold max (Ideal.ofBits .f32 0xFF800000#32) (fun k => z (h.lift (ix1 p) k)) = _
  unfold Cert.Sage.rowMax
  refine congrArg (fun f : Fin 2 → EReal => (Finset.univ : Finset (Fin 2)).fold max (Ideal.ofBits .f32 0xFF800000#32) f)
    (funext fun k => congrArg z (funext fun c => Fin.ext ?_))
  match c with
  | ⟨0, _⟩ => rfl
  | ⟨1, _⟩ => rfl

/-- The lane sum of row `p`: the sum of the row's two entries. -/
theorem rowSum_apply (y : FVec Ideal S5000x2 .f32) (h : S5000x2.Reduces [1] S5000) (hφ : FKind.Formats FTy.f32)
    (hacc : (0x00000000#32 : BitVec FTy.f32.bits) = FKind.add.neutral .f32 hφ) (p : Fin 5000) :
    multiReduction (F := Ideal) .add [1] S5000 y 0x00000000#32 h hφ hacc (ix1 p) = ∑ k : Fin 2, y (ix2 p k) := by
  refine (Ideal.multiReduction_add_single y 0x00000000#32 h hφ hacc (ix1 p)).trans ?_
  show ∑ k : Fin 2, y (h.lift (ix1 p) k) = _
  refine Finset.sum_congr rfl fun k _ => congrArg y (funext fun c => Fin.ext ?_)
  match c with
  | ⟨0, _⟩ => rfl
  | ⟨1, _⟩ => rfl

/-- A per-row value kept as a [5000, 1] column and broadcast along the lanes reads, at (p, q), the value of row `p`. -/
theorem keepCol_apply (v : FVec Ideal S5000 .f32) (h1 : S5000.ShapeCasts S5000x1) (h2 : S5000x1.Broadcasts S5000x2)
    (p : Fin 5000) (q : Fin 2) : broadcastTo S5000x2 (shapeCast S5000x1 v h1) h2 (ix2 p q) = v (ix1 p) :=
  (Cert.LibKeepdims.broadcastTo_a1_ab_apply _ h2 p q).trans (Cert.LibKeepdims.shapeCast_a_a1_apply v h1 p 0)

/-- The same with the logarithm taken on the column. -/
theorem keepColLog_apply (v : FVec Ideal S5000 .f32) (h1 : S5000.ShapeCasts S5000x1) (h2 : S5000x1.Broadcasts S5000x2)
    (p : Fin 5000) (q : Fin 2) : broadcastTo S5000x2 (log (shapeCast S5000x1 v h1)) h2 (ix2 p q) = Ideal.log (v (ix1 p)) :=
  (Cert.LibKeepdims.broadcastTo_a1_ab_apply _ h2 p q).trans (congrArg Ideal.log (Cert.LibKeepdims.shapeCast_a_a1_apply v h1 p 0))

/-! ## The body's value at an entry -/

/-- Entry (p, q) of `x0·wl + x1·wr + b` on one block of 5000 rows. -/
def linBlk (x0 x1 : FVec Ideal S5000x128 .f32) (wl wr : FVec Ideal S128x2 .f32) (b : FVec Ideal S1x2 .f32)
    (p : Fin 5000) (q : Fin 2) : EReal :=
  (∑ k : Fin 128, x0 (ix2 p k) * wl (ix2 k q)) + (∑ k : Fin 128, x1 (ix2 p k) * wr (ix2 k q)) + b (ix2 (0 : Fin 1) q)

/-- The dense step before the softmax, as the body forms it (casts and format changes the identity). -/
def zBlk (x0 x1 : Vec Ideal S5000x128 .f32) (wl wr : Vec Ideal S128x2 .f32) (b : Vec Ideal S1x2 .f32) : FVec Ideal S5000x2 .f32 :=
  addf (addf (matmul dot_S5000x128_S128x2_S5000x2_1_0_0_1_n_n none (truncf .bf16 (shapeCast S5000x128 x0 shapeCasts_S5000x128_S5000x128) bitsLt_bf16_f32) (truncf .bf16 (shapeCast S128x2 wl shapeCasts_S128x2_S128x2) bitsLt_bf16_f32) (constant S5000x2 .f32 0x00000000#32))
    (matmul dot_S5000x128_S128x2_S5000x2_1_0_0_1_n_n none (truncf .bf16 (shapeCast S5000x128 x1 shapeCasts_S5000x128_S5000x128) bitsLt_bf16_f32) (truncf .bf16 (shapeCast S128x2 wr shapeCasts_S128x2_S128x2) bitsLt_bf16_f32) (constant S5000x2 .f32 0x00000000#32)))
    (broadcastTo S5000x2 (shapeCast S1x2 b shapeCasts_S1x2_S1x2) broadcasts_S1x2_S5000x2)

theorem zBlk_apply (x0 x1 : Vec Ideal S5000x128 .f32) (wl wr : Vec Ideal S128x2 .f32) (b : Vec Ideal S1x2 .f32) (p : Fin 5000) (q : Fin 2) :
    zBlk x0 x1 wl wr b (ix2 p q) = linBlk x0 x1 wl wr b p q := by
  unfold zBlk linBlk
  rw [addf_apply, addf_apply, matmul2_apply, matmul2_apply, broadcastTo_1b_ab_apply]
  simp only [shapeCast_self, truncf_apply]

/-- The dense step's entries shifted by their row's maximum, as the body forms them. -/
def shiftBlk (z : FVec Ideal S5000x2 .f32) : FVec Ideal S5000x2 .f32 :=
  subf z (broadcastTo S5000x2 (shapeCast S5000x1 (multiReduction .maximumf [1] S5000 z 0xFF800000#32 reduces_S5000x2_S5000 (.inl rfl) rfl) shapeCasts_S5000_S5000x1) broadcasts_S5000x1_S5000x2)

theorem shiftBlk_apply (z : FVec Ideal S5000x2 .f32) (p : Fin 5000) (q : Fin 2) :
    shiftBlk z (ix2 p q) = z (ix2 p q) - Cert.Sage.rowMax (fun q' => z (ix2 p q')) := by
  unfold shiftBlk
  rw [subf_apply, keepCol_apply]
  exact congrArg (z (ix2 p q) - ·) (rowMax_apply z _ _ _ p)

/-- A block minus, row by row, the logarithm of the sum of its row's exponentials, as the body forms it. -/
def softTail (y : FVec Ideal S5000x2 .f32) : FVec Ideal S5000x2 .f32 :=
  subf y (broadcastTo S5000x2 (log (shapeCast S5000x1 (multiReduction .add [1] S5000 (exp y) 0x00000000#32 reduces_S5000x2_S5000 (.inl rfl) rfl) shapeCasts_S5000_S5000x1)) broadcasts_S5000x1_S5000x2)

theorem softTail_apply (y : FVec Ideal S5000x2 .f32) (p : Fin 5000) (q : Fin 2) :
    softTail y (ix2 p q) = y (ix2 p q) - Ideal.log (∑ k : Fin 2, Ideal.exp (y (ix2 p k))) := by
  unfold softTail
  rw [subf_apply, keepColLog_apply]
  exact congrArg (fun s => y (ix2 p q) - Ideal.log s) (rowSum_apply (exp y) _ _ _ p)

/-- The body's stored value is those three steps composed. -/
theorem k2_pay1_eq (x0 x1 : Vec Ideal S5000x128 .f32) (wl wr : Vec Ideal S128x2 .f32) (b : Vec Ideal S1x2 .f32) :
    k2_pay1 (F := Ideal) x0 x1 wl wr b = softTail (shiftBlk (zBlk x0 x1 wl wr b)) := rfl

/-- THE BODY AT AN ENTRY: the log-softmax of row `p` of `x0·wl + x1·wr + b`, at column `q`. -/
theorem k2_pay1_apply (x0 x1 : Vec Ideal S5000x128 .f32) (wl wr : Vec Ideal S128x2 .f32) (b : Vec Ideal S1x2 .f32)
    (p : Fin 5000) (q : Fin 2) :
    k2_pay1 (F := Ideal) x0 x1 wl wr b (ix2 p q) = Cert.Sage.logSoftmaxRow (fun q' => linBlk x0 x1 wl wr b p q') q := by
  rw [k2_pay1_eq, softTail_apply]
  simp only [shiftBlk_apply, zBlk_apply]
  rfl

end Cert.KernelIdeal.Sage

end
-- ==== Proof.KRegion2.lean ====
/-
  The last layer's kernel launch, from its 20 blocks to the whole array.

  Grid point t reads rows 5000·t … 5000·t + 4999 of the neighbour means and of the features, the two weight matrices and
  the bias row whole, and writes rows 5000·t … 5000·t + 4999 of the output. What it writes at row p, column q of its block
  is the log-softmax of row p of `x0·wl + x1·wr + b` on the block (`k2_pay1_apply`), and row p of the block is row
  5000·t + p of the arrays, so it is entry (5000·t + p, q) of `Cert.Sage.outLayer` of the arrays as the region finds
  them. The 20 blocks tile the 100000 rows (row r lies in block r / 5000), so the output array ends holding `outLayer`.
-/
import proofs.«178284_j81870666596807_1_alg».proof.Proof.Gen.KernelIdeal.Frame
import proofs.«178284_j81870666596807_1_alg».proof.Proof.KPay2
import Idealize.ShloMosaic.Lib.Pipeline.Value

noncomputable section

namespace Cert.KernelIdeal.Sage

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One entry of a block against one entry of the arrays -/

/-- If row `y 0` of the two loaded blocks is row `i 0` of the arrays `A`, `H`, the weights and the bias are the arrays'
    and `i`, `y` have the same column, the body's value at `y` is the last layer's at `i`. -/
theorem k2_pay1_block (A H : FVec Ideal S100000x128 .f32) (Wl Wr : FVec Ideal S128x2 .f32) (B : FVec Ideal S1x2 .f32)
    (x0 x1 : Vec Ideal S5000x128 .f32) (wl wr : Vec Ideal S128x2 .f32) (b : Vec Ideal S1x2 .f32)
    (y : S5000x2.Idx) (i : S100000x2.Idx)
    (h0 : ∀ k : Fin 128, x0 (ix2 (y 0) k) = A (ix2 (i 0) k))
    (h1 : ∀ k : Fin 128, x1 (ix2 (y 0) k) = H (ix2 (i 0) k))
    (hwl : wl = Wl) (hwr : wr = Wr) (hb : b = B) (hq : (y 1).val = (i 1).val) :
    k2_pay1 (F := Ideal) x0 x1 wl wr b y = Cert.Sage.outLayer A H Wl Wr B i := by
  subst hwl hwr hb
  refine (congrArg (k2_pay1 (F := Ideal) x0 x1 wl wr b) (eq_ix2 y)).trans ?_
  refine (k2_pay1_apply x0 x1 wl wr b (y 0) (y 1)).trans ?_
  unfold Cert.Sage.outLayer
  have hq' : (y 1 : Fin 2) = (i 1 : Fin 2) := Fin.ext hq
  have hrow : (fun q' : Fin 2 => linBlk x0 x1 wl wr b (y 0) q') = fun q : Fin 2 => Cert.Sage.lin2 A H wl wr b (i 0) q :=
    funext fun q => by
      unfold linBlk Cert.Sage.lin2
      simp only [h0, h1]
  rw [hrow, hq']

/-! ## The blocks of the six windows at a grid point -/

theorem offs_zero : (![0, 0] : Fin 2 → Nat) = fun _ => 0 := funext fun a => by fin_cases a <;> rfl

/-- The block indices, decided over the 20 grid points: the two row-blocked inputs and the output are at block (t, 0),
    the weights and the bias at block (0, 0). -/
theorem idx_facts : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

section Region
variable (V : (c : Dev nD) → (b : Ref sig .tc) → Buf (Elt Ideal) ((c : Thread nD τ).loc b))

/-- The first weight matrix's block is the whole matrix, at every point. -/
theorem iblk_wl (c : Dev nD) (t : Fin cfg2.N) : (iblk2 V c 2 t : Vec Ideal S128x2 .f32) = V c main_v53 := by
  obtain ⟨-, -, -, -, -, -, e20, e21, -⟩ := idx_facts t
  funext x
  show V c main_v53 (((cfg2.win 2).blk t).view.emb x) = V c main_v53 x
  refine congrArg (V c main_v53) (funext fun a => Fin.ext ?_)
  match a with
  | ⟨0, _⟩ => show win2_2.index t (0 : Fin 2) * 128 + 1 * (x 0).val = (x 0).val; omega
  | ⟨1, _⟩ => show win2_2.index t (1 : Fin 2) * 2 + 1 * (x 1).val = (x 1).val; omega

/-- The bias row's block is the whole row, at every point. -/
theorem iblk_b (c : Dev nD) (t : Fin cfg2.N) : (iblk2 V c 3 t : Vec Ideal S1x2 .f32) = V c main_v55 := by
  obtain ⟨-, -, -, -, -, -, -, -, e30, e31, -⟩ := idx_facts t
  funext x
  show V c main_v55 (((cfg2.win 3).blk t).view.emb x) = V c main_v55 x
  refine congrArg (V c main_v55) (funext fun a => Fin.ext ?_)
  match a with
  | ⟨0, _⟩ => show win2_3.index t (0 : Fin 2) * 1 + 1 * (x 0).val = (x 0).val; omega
  | ⟨1, _⟩ => show win2_3.index t (1 : Fin 2) * 2 + 1 * (x 1).val = (x 1).val; omega

/-- The second weight matrix's block is the whole matrix, at every point. -/
theorem iblk_wr (c : Dev nD) (t : Fin cfg2.N) : (iblk2 V c 4 t : Vec Ideal S128x2 .f32) = V c main_v54 := by
  obtain ⟨-, -, -, -, -, -, -, -, -, -, e40, e41⟩ := idx_facts t
  funext x
  show V c main_v54 (((cfg2.win 4).blk t).view.emb x) = V c main_v54 x
  refine congrArg (V c main_v54) (funext fun a => Fin.ext ?_)
  match a with
  | ⟨0, _⟩ => show win2_4.index t (0 : Fin 2) * 128 + 1 * (x 0).val = (x 0).val; omega
  | ⟨1, _⟩ => show win2_4.index t (1 : Fin 2) * 2 + 1 * (x 1).val = (x 1).val; omega

/-! ## What a point writes back, the cover, and the whole array -/

/-- WHAT POINT `t` WRITES BACK is block `t` of the last layer of the arrays as the region finds them. -/
theorem flushed_eq (c : Dev nD) (t : Fin cfg2.N) :
    (dat2 V c).flushed 5 t = ((cfg2.win 5).blk t).view.read (Elt Ideal)
      (Cert.Sage.outLayer (V c main_v52) (V c main_v40) (V c main_v53) (V c main_v54) (V c main_v55)) := by
  show (cfg2.win 5).cut (grid2.coords t) ((dat2 V c).after 5 t) = _
  rw [after2_5]
  unfold out2_5
  rw [View.canon_unit_zero offs_zero]
  simp only [View.ld_unit_zero (S := S5000x128) offs_zero, View.ld_unit_zero (S := S128x2) offs_zero,
    View.ld_unit_zero (S := S1x2) offs_zero]
  obtain ⟨e50, e51, e00, e01, e10, e11, -⟩ := idx_facts t
  funext y
  show k2_pay1 (F := Ideal) (iblk2 V c 0 t) (iblk2 V c 1 t) (iblk2 V c 2 t) (iblk2 V c 4 t) (iblk2 V c 3 t) y
    = Cert.Sage.outLayer (V c main_v52) (V c main_v40) (V c main_v53) (V c main_v54) (V c main_v55) (((cfg2.win 5).blk t).view.emb y)
  refine k2_pay1_block (V c main_v52) (V c main_v40) (V c main_v53) (V c main_v54) (V c main_v55)
    (iblk2 V c 0 t) (iblk2 V c 1 t) (iblk2 V c 2 t) (iblk2 V c 4 t) (iblk2 V c 3 t) y (((cfg2.win 5).blk t).view.emb y)
    (fun k => ?_) (fun k => ?_) (iblk_wl V c t) (iblk_wr V c t) (iblk_b V c t) ?_
  · show V c main_v52 (((cfg2.win 0).blk t).view.emb (ix2 (y 0) k)) = V c main_v52 (ix2 ((((cfg2.win 5).blk t).view.emb y) 0) k)
    refine congrArg (V c main_v52) (funext fun a => Fin.ext ?_)
    match a with
    | ⟨0, _⟩ => show win2_0.index t (0 : Fin 2) * 5000 + 1 * (y 0).val = win2_5.index t (0 : Fin 2) * 5000 + 1 * (y 0).val; omega
    | ⟨1, _⟩ => show win2_0.index t (1 : Fin 2) * 128 + 1 * k.val = k.val; omega
  · show V c main_v40 (((cfg2.win 1).blk t).view.emb (ix2 (y 0) k)) = V c main_v40 (ix2 ((((cfg2.win 5).blk t).view.emb y) 0) k)
    refine congrArg (V c main_v40) (funext fun a => Fin.ext ?_)
    match a with
    | ⟨0, _⟩ => show win2_1.index t (0 : Fin 2) * 5000 + 1 * (y 0).val = win2_5.index t (0 : Fin 2) * 5000 + 1 * (y 0).val; omega
    | ⟨1, _⟩ => show win2_1.index t (1 : Fin 2) * 128 + 1 * k.val = k.val; omega
  · show (y 1).val = win2_5.index t (1 : Fin 2) * 2 + 1 * (y 1).val
    omega

/-- An index of the output array is in point `t`'s block iff each coordinate is in the block's range on its axis. -/
theorem mem_blk (t : Fin cfg2.N) (i : S100000x2.Idx) :
    i ∈ ((cfg2.win 5).blk t).view.set ↔ ∀ a : Fin 2, win2_5.index t a * S5000x2.size a ≤ (i a).val ∧ (i a).val < win2_5.index t a * S5000x2.size a + S5000x2.size a := by
  show i ∈ ((View.whole main_v56).slice (win2_5.rect t)).set ↔ _
  rw [View.set_slice_whole, Rect.mem_set_unit]
  exact Iff.rfl

/-- Every index of the output array is in some point's block: row `r` in that of point `r / 5000`. -/
theorem cover (i : S100000x2.Idx) : ∃ t : Fin cfg2.N, (cfg2.win 5).flush t = true ∧ i ∈ ((cfg2.win 5).blk t).view.set := by
  have hi0 : (i 0).val < 100000 := (i 0).isLt
  have hi1 : (i 1).val < 2 := (i 1).isLt
  have hN : cfg2.N = 20 := N_2
  have ht : (i 0).val / 5000 < cfg2.N := by rw [hN]; omega
  obtain ⟨e50, e51, -⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, ht⟩ (1 : Fin 2) * 2 ≤ (i 1).val ∧ (i 1).val < win2_5.index ⟨(i 0).val / 5000, ht⟩ (1 : Fin 2) * 2 + 2
    rw [e51]
    omega

/-- THE OUTPUT ARRAY after the region: the last layer of the arrays as the region finds them. -/
theorem region2_value (c : Dev nD) :
    (Gen.dat2 V c).arrAt 5 cfg2.N = Cert.Sage.outLayer (V c main_v52) (V c main_v40) (V c main_v53) (V c main_v54) (V c main_v55) :=
  (dat2 V c).arrAt_eq_of_cover 5 (Cert.Sage.outLayer (V c main_v52) (V c main_v40) (V c main_v53) (V c main_v54) (V c main_v55))
    (fun t _ => flushed_eq V c t) cover

end Region

end Cert.KernelIdeal.Sage

end
-- ==== Proof.RefStretch.lean ====
/-
  The reference's host program, cut into eight stretches, and what each stretch leaves in the buffers that
  later ones read.

  The 103 operations are the reciprocal in-degree, then three layers: each a neighbour mean (gather, scatter-add,
  scale by the reciprocal in-degree) followed by the dense step `(A·Wlᵀ + b) + H·Wrᵀ`; the two hidden layers take the
  positive part, the last one the row-wise log-softmax. Every statement here is over an arbitrary valuation of the
  buffers and an arbitrary float instance: the neighbour mean and the reciprocal in-degree are the chains the
  specification names (`Cert.Sage.meanAgg`, `Cert.Sage.invDeg`), and the dense steps are named `hidHost`,
  `logitsHost`, `lsmHost` below; no gather, scatter or contraction is ever opened.
-/
import proofs.«178284_j81870666596807_1_alg».proof.Proof.RefRun
import proofs.«178284_j81870666596807_1_alg».proof.Proof.Spec
import Idealize.ShloMosaic.Lib.StableHlo.Run

noncomputable section

namespace Cert.ReferenceIdeal.Sage

open Cert.ReferenceIdeal Cert.ReferenceIdeal.Gen Idealize.ShloMosaic Idealize.ShloMosaic.TcCoe Idealize.SL.Sem Idealize.ShloMosaic.StableHlo

variable {F : FTy → Type} [FloatOps F]

/-! ## The eight stretches -/

/-- Operations 1–13: the reciprocal in-degree column. -/
def sA : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg11 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v6 (broadcastInDim S100000 ![] bcast_S_S100000 : (⟨S_, .f32⟩ : BufTy).Contents (Elt F) → (⟨S100000, .f32⟩ : BufTy).Contents (Elt F)),
    binary main_v6 main_v5 main_v7 (Host.divf : (⟨S100000, .f32⟩ : BufTy).Contents (Elt F) → (⟨S100000, .f32⟩ : BufTy).Contents (Elt F) → (⟨S100000, .f32⟩ : BufTy).Contents (Elt F)),
    unary main_v7 main_v8 (broadcastInDim S100000x1 ![0] bcast_S100000_S100000x1_0 : (⟨S100000, .f32⟩ : BufTy).Contents (Elt F) → (⟨S100000x1, .f32⟩ : BufTy).Contents (Elt F)) ]

/-- Operations 14–28: the neighbour mean of the input features. -/
def sB1 : List (HloOp τ sig (Elt F)) :=
  [ nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_arg10 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v11 (broadcastInDim S1600000 ![] bcast_S_S1600000 : (⟨S_, .i32⟩ : BufTy).Contents (Elt F) → (⟨S1600000, .i32⟩ : BufTy).Contents (Elt F)),
    binary main_arg10 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_arg10 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_arg0 main_v14 main_v15 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v16 (broadcastInDim S100000x128 ![] bcast_S_S100000x128 : (⟨S_, .f32⟩ : BufTy).Contents (Elt F) → (⟨S100000x128, .f32⟩ : BufTy).Contents (Elt F)),
    unary main_arg11 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v19 (broadcastInDim S100000x128 ![0, 1] bcast_S100000x1_S100000x128_0_1 : (⟨S100000x1, .f32⟩ : BufTy).Contents (Elt F) → (⟨S100000x128, .f32⟩ : BufTy).Contents (Elt F)),
    binary main_v18 main_v19 main_v20 (mulf : (⟨S100000x128, .f32⟩ : BufTy).Contents (Elt F) → (⟨S100000x128, .f32⟩ : BufTy).Contents (Elt F) → (⟨S100000x128, .f32⟩ : BufTy).Contents (Elt F)) ]

/-- Operations 29–39: the first hidden layer's dense step. -/
def sC1 : List (HloOp τ sig (Elt F)) :=
  [ unary main_arg1 main_v21 ((transpose S128x128 [1, 0] · transposes_S128x128_S128x128_1_0) : (⟨S128x128, .f32⟩ : BufTy).Contents (Elt F) → (⟨S128x128, .f32⟩ : BufTy).Contents (Elt F)),
    binary main_v20 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)),
    unary main_arg3 main_v26 ((transpose S128x128 [1, 0] · transposes_S128x128_S128x128_1_0) : (⟨S128x128, .f32⟩ : BufTy).Contents (Elt F) → (⟨S128x128, .f32⟩ : BufTy).Contents (Elt F)),
    binary main_arg0 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v28) (TRef.of (T := ⟨S100000x128, .f32⟩) main_call0_v0) (TRef.of (T := ⟨S100000x128, .f32⟩) main_v29) maximumf ]

/-- Operations 40–54: the neighbour mean of the first hidden layer's features. -/
def sB2 : List (HloOp τ sig (Elt F)) :=
  [ nullary main_c_5 (constantI S_ 32 0#32),
    unary main_c_5 main_v30 (broadcastInDim S1600000 ![] bcast_S_S1600000 : (⟨S_, .i32⟩ : BufTy).Contents (Elt F) → (⟨S1600000, .i32⟩ : BufTy).Contents (Elt F)),
    binary main_arg10 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v32 (broadcastInDim S1600000 ![] bcast_S_S1600000 : (⟨S_, .i32⟩ : BufTy).Contents (Elt F) → (⟨S1600000, .i32⟩ : BufTy).Contents (Elt F)),
    binary main_arg10 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_arg10 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v37 (broadcastInDim S100000x128 ![] bcast_S_S100000x128 : (⟨S_, .f32⟩ : BufTy).Contents (Elt F) → (⟨S100000x128, .f32⟩ : BufTy).Contents (Elt F)),
    unary main_arg11 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v40 (broadcastInDim S100000x128 ![0, 1] bcast_S100000x1_S100000x128_0_1 : (⟨S100000x1, .f32⟩ : BufTy).Contents (Elt F) → (⟨S100000x128, .f32⟩ : BufTy).Contents (Elt F)),
    binary main_v39 main_v40 main_v41 (mulf : (⟨S100000x128, .f32⟩ : BufTy).Contents (Elt F) → (⟨S100000x128, .f32⟩ : BufTy).Contents (Elt F) → (⟨S100000x128, .f32⟩ : BufTy).Contents (Elt F)) ]

/-- Operations 55–65: the second hidden layer's dense step. -/
def sC2 : List (HloOp τ sig (Elt F)) :=
  [ unary main_arg4 main_v42 ((transpose S128x128 [1, 0] · transposes_S128x128_S128x128_1_0) : (⟨S128x128, .f32⟩ : BufTy).Contents (Elt F) → (⟨S128x128, .f32⟩ : BufTy).Contents (Elt F)),
    binary main_v41 main_v42 main_v43 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    unary main_arg6 main_v47 ((transpose S128x128 [1, 0] · transposes_S128x128_S128x128_1_0) : (⟨S128x128, .f32⟩ : BufTy).Contents (Elt F) → (⟨S128x128, .f32⟩ : BufTy).Contents (Elt F)),
    binary main_v29 main_v47 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v49) (TRef.of (T := ⟨S100000x128, .f32⟩) main_call1_v0) (TRef.of (T := ⟨S100000x128, .f32⟩) main_v50) maximumf ]

/-- Operations 66–80: the neighbour mean of the second hidden layer's features. -/
def sB3 : List (HloOp τ sig (Elt F)) :=
  [ nullary main_c_8 (constantI S_ 32 0#32),
    unary main_c_8 main_v51 (broadcastInDim S1600000 ![] bcast_S_S1600000 : (⟨S_, .i32⟩ : BufTy).Contents (Elt F) → (⟨S1600000, .i32⟩ : BufTy).Contents (Elt F)),
    binary main_arg10 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v53 (broadcastInDim S1600000 ![] bcast_S_S1600000 : (⟨S_, .i32⟩ : BufTy).Contents (Elt F) → (⟨S1600000, .i32⟩ : BufTy).Contents (Elt F)),
    binary main_arg10 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_arg10 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v50 main_v56 main_v57 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v58 (broadcastInDim S100000x128 ![] bcast_S_S100000x128 : (⟨S_, .f32⟩ : BufTy).Contents (Elt F) → (⟨S100000x128, .f32⟩ : BufTy).Contents (Elt F)),
    unary main_arg11 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v61 (broadcastInDim S100000x128 ![0, 1] bcast_S100000x1_S100000x128_0_1 : (⟨S100000x1, .f32⟩ : BufTy).Contents (Elt F) → (⟨S100000x128, .f32⟩ : BufTy).Contents (Elt F)),
    binary main_v60 main_v61 main_v62 (mulf : (⟨S100000x128, .f32⟩ : BufTy).Contents (Elt F) → (⟨S100000x128, .f32⟩ : BufTy).Contents (Elt F) → (⟨S100000x128, .f32⟩ : BufTy).Contents (Elt F)) ]

/-- Operations 81–88: the last layer's logits. -/
def sC3 : List (HloOp τ sig (Elt F)) :=
  [ unary main_arg7 main_v63 ((transpose S128x2 [1, 0] · transposes_S2x128_S128x2_1_0) : (⟨S2x128, .f32⟩ : BufTy).Contents (Elt F) → (⟨S128x2, .f32⟩ : BufTy).Contents (Elt F)),
    binary main_v62 main_v63 main_v64 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg8 main_v65 (broadcastInDim S1x2 ![1] bcast_S2_S1x2_1 : (⟨S2, .f32⟩ : BufTy).Contents (Elt F) → (⟨S1x2, .f32⟩ : BufTy).Contents (Elt F)),
    unary main_v65 main_v66 (broadcastInDim S100000x2 ![0, 1] bcast_S1x2_S100000x2_0_1 : (⟨S1x2, .f32⟩ : BufTy).Contents (Elt F) → (⟨S100000x2, .f32⟩ : BufTy).Contents (Elt F)),
    binary main_v64 main_v66 main_v67 (addf : (⟨S100000x2, .f32⟩ : BufTy).Contents (Elt F) → (⟨S100000x2, .f32⟩ : BufTy).Contents (Elt F) → (⟨S100000x2, .f32⟩ : BufTy).Contents (Elt F)),
    unary main_arg9 main_v68 ((transpose S128x2 [1, 0] · transposes_S2x128_S128x2_1_0) : (⟨S2x128, .f32⟩ : BufTy).Contents (Elt F) → (⟨S128x2, .f32⟩ : BufTy).Contents (Elt F)),
    binary main_v50 main_v68 main_v69 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    binary main_v67 main_v69 main_v70 (addf : (⟨S100000x2, .f32⟩ : BufTy).Contents (Elt F) → (⟨S100000x2, .f32⟩ : BufTy).Contents (Elt F) → (⟨S100000x2, .f32⟩ : BufTy).Contents (Elt F)) ]

/-- Operations 89–103: the row-wise log-softmax of the logits. -/
def sD : List (HloOp τ sig (Elt F)) :=
  [ TRef.nullary (TRef.of (T := ⟨S_, .f32⟩) main_call2_cst) (constant S_ .f32 0xFF800000#32),
    TRef.binary (TRef.of (T := ⟨S100000x2, .f32⟩) main_v70) (TRef.of (T := ⟨S_, .f32⟩) main_call2_cst) (TRef.of (T := ⟨S100000, .f32⟩) main_call2_v0) (fun x v => Host.reduce FloatOps.maximumf x v reducesTo_S100000x2_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x2, .f32⟩) main_call2_v4) (broadcastInDim S100000x2 ![0, 1] bcast_S100000x1_S100000x2_0_1),
    TRef.binary (TRef.of (T := ⟨S100000x2, .f32⟩) main_v70) (TRef.of (T := ⟨S100000x2, .f32⟩) main_call2_v4) (TRef.of (T := ⟨S100000x2, .f32⟩) main_call2_v5) subf,
    TRef.unary (TRef.of (T := ⟨S100000x2, .f32⟩) main_call2_v5) (TRef.of (T := ⟨S100000x2, .f32⟩) main_call2_v6) Host.exp,
    TRef.nullary (TRef.of (T := ⟨S_, .f32⟩) main_call2_cst_1) (constant S_ .f32 0x00000000#32),
    TRef.binary (TRef.of (T := ⟨S100000x2, .f32⟩) main_call2_v6) (TRef.of (T := ⟨S_, .f32⟩) main_call2_cst_1) (TRef.of (T := ⟨S100000, .f32⟩) main_call2_v7) (fun x v => Host.reduceAdd x v reducesTo_S100000x2_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x2, .f32⟩) main_call2_v10) (broadcastInDim S100000x2 ![0, 1] bcast_S100000x1_S100000x2_0_1),
    TRef.binary (TRef.of (T := ⟨S100000x2, .f32⟩) main_call2_v5) (TRef.of (T := ⟨S100000x2, .f32⟩) main_call2_v10) (TRef.of (T := ⟨S100000x2, .f32⟩) main_v71) subf ]

/-- The program is the eight stretches in order. -/
theorem ops_eq : (ValueP.ops : List (HloOp τ sig (Elt F)))
    = sA ++ (sB1 ++ (sC1 ++ (sB2 ++ (sC2 ++ (sB3 ++ (sC3 ++ sD)))))) := rfl

/-- Running a concatenation is running its parts in order. -/
theorem after_append' (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## What each stretch writes

Each stretch writes the buffers of its own list and no other, so every other buffer keeps its contents across it
(`after_of_writes_sub`). -/

/-- The buffers `sA` writes. -/
def sAW : List (Ref sig .tc) := [main_cst, main_v0, main_cst_0, main_v1, main_v2, main_v3, main_cst_1, main_v4, main_v5, main_cst_2, main_v6, main_v7, main_v8]
theorem sA_writes : (sA : List (HloOp τ sig (Elt F))).Forall fun op => op.writes ⊆ ((sAW).map (Proc.devRef (τ := τ) .tc)).toFinset := by
  simp only [sA, List.Forall, nullary_writes, unary_writes, binary_writes, ternary_writes]
  repeat' apply And.intro
  all_goals exact Finset.singleton_subset_iff.mpr (List.mem_toFinset.mpr (List.mem_map_of_mem (by decide)))

/-- The buffers `sB1` writes. -/
def sB1W : List (Ref sig .tc) := [main_c, main_v9, main_v10, main_c_3, main_v11, main_v12, main_v13, main_v14, main_v15, main_cst_4, main_v16, main_v17, main_v18, main_v19, main_v20]
theorem sB1_writes : (sB1 : List (HloOp τ sig (Elt F))).Forall fun op => op.writes ⊆ ((sB1W).map (Proc.devRef (τ := τ) .tc)).toFinset := by
  simp only [sB1, List.Forall, nullary_writes, unary_writes, binary_writes, ternary_writes]
  repeat' apply And.intro
  all_goals exact Finset.singleton_subset_iff.mpr (List.mem_toFinset.mpr (List.mem_map_of_mem (by decide)))

/-- The buffers `sC1` writes. -/
def sC1W : List (Ref sig .tc) := [main_v21, main_v22, main_v23, main_v24, main_v25, main_v26, main_v27, main_v28, main_call0_cst, main_call0_v0, main_v29]
theorem sC1_writes : (sC1 : List (HloOp τ sig (Elt F))).Forall fun op => op.writes ⊆ ((sC1W).map (Proc.devRef (τ := τ) .tc)).toFinset := by
  simp only [sC1, List.Forall, nullary_writes, unary_writes, binary_writes, ternary_writes]
  repeat' apply And.intro
  all_goals exact Finset.singleton_subset_iff.mpr (List.mem_toFinset.mpr (List.mem_map_of_mem (by decide)))

/-- The buffers `sB2` writes. -/
def sB2W : List (Ref sig .tc) := [main_c_5, main_v30, main_v31, main_c_6, main_v32, main_v33, main_v34, main_v35, main_v36, main_cst_7, main_v37, main_v38, main_v39, main_v40, main_v41]
theorem sB2_writes : (sB2 : List (HloOp τ sig (Elt F))).Forall fun op => op.writes ⊆ ((sB2W).map (Proc.devRef (τ := τ) .tc)).toFinset := by
  simp only [sB2, List.Forall, nullary_writes, unary_writes, binary_writes, ternary_writes]
  repeat' apply And.intro
  all_goals exact Finset.singleton_subset_iff.mpr (List.mem_toFinset.mpr (List.mem_map_of_mem (by decide)))

/-- The buffers `sC2` writes. -/
def sC2W : List (Ref sig .tc) := [main_v42, main_v43, main_v44, main_v45, main_v46, main_v47, main_v48, main_v49, main_call1_cst, main_call1_v0, main_v50]
theorem sC2_writes : (sC2 : List (HloOp τ sig (Elt F))).Forall fun op => op.writes ⊆ ((sC2W).map (Proc.devRef (τ := τ) .tc)).toFinset := by
  simp only [sC2, List.Forall, nullary_writes, unary_writes, binary_writes, ternary_writes]
  repeat' apply And.intro
  all_goals exact Finset.singleton_subset_iff.mpr (List.mem_toFinset.mpr (List.mem_map_of_mem (by decide)))

/-- The buffers `sB3` writes. -/
def sB3W : List (Ref sig .tc) := [main_c_8, main_v51, main_v52, main_c_9, main_v53, main_v54, main_v55, main_v56, main_v57, main_cst_10, main_v58, main_v59, main_v60, main_v61, main_v62]
theorem sB3_writes : (sB3 : List (HloOp τ sig (Elt F))).Forall fun op => op.writes ⊆ ((sB3W).map (Proc.devRef (τ := τ) .tc)).toFinset := by
  simp only [sB3, List.Forall, nullary_writes, unary_writes, binary_writes, ternary_writes]
  repeat' apply And.intro
  all_goals exact Finset.singleton_subset_iff.mpr (List.mem_toFinset.mpr (List.mem_map_of_mem (by decide)))

/-- The buffers `sC3` writes. -/
def sC3W : List (Ref sig .tc) := [main_v63, main_v64, main_v65, main_v66, main_v67, main_v68, main_v69, main_v70]
theorem sC3_writes : (sC3 : List (HloOp τ sig (Elt F))).Forall fun op => op.writes ⊆ ((sC3W).map (Proc.devRef (τ := τ) .tc)).toFinset := by
  simp only [sC3, List.Forall, nullary_writes, unary_writes, binary_writes, ternary_writes]
  repeat' apply And.intro
  all_goals exact Finset.singleton_subset_iff.mpr (List.mem_toFinset.mpr (List.mem_map_of_mem (by decide)))

/-- The buffers `sD` writes. -/
def sDW : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v71]
theorem sD_writes : (sD : List (HloOp τ sig (Elt F))).Forall fun op => op.writes ⊆ ((sDW).map (Proc.devRef (τ := τ) .tc)).toFinset := by
  simp only [sD, List.Forall, nullary_writes, unary_writes, binary_writes, ternary_writes]
  repeat' apply And.intro
  all_goals exact Finset.singleton_subset_iff.mpr (List.mem_toFinset.mpr (List.mem_map_of_mem (by decide)))

/-- A buffer `sA` does not write keeps its contents across it. -/
theorem sA_kept {r : Ref sig .tc} (hr : r ∉ sAW) (V : Valuation τ sig (Elt F)) :
    after sA V (Proc.devRef .tc r) = V (Proc.devRef .tc r) :=
  after_of_writes_sub _ V sA_writes hr

/-- A buffer `sB1` does not write keeps its contents across it. -/
theorem sB1_kept {r : Ref sig .tc} (hr : r ∉ sB1W) (V : Valuation τ sig (Elt F)) :
    after sB1 V (Proc.devRef .tc r) = V (Proc.devRef .tc r) :=
  after_of_writes_sub _ V sB1_writes hr

/-- A buffer `sC1` does not write keeps its contents across it. -/
theorem sC1_kept {r : Ref sig .tc} (hr : r ∉ sC1W) (V : Valuation τ sig (Elt F)) :
    after sC1 V (Proc.devRef .tc r) = V (Proc.devRef .tc r) :=
  after_of_writes_sub _ V sC1_writes hr

/-- A buffer `sB2` does not write keeps its contents across it. -/
theorem sB2_kept {r : Ref sig .tc} (hr : r ∉ sB2W) (V : Valuation τ sig (Elt F)) :
    after sB2 V (Proc.devRef .tc r) = V (Proc.devRef .tc r) :=
  after_of_writes_sub _ V sB2_writes hr

/-- A buffer `sC2` does not write keeps its contents across it. -/
theorem sC2_kept {r : Ref sig .tc} (hr : r ∉ sC2W) (V : Valuation τ sig (Elt F)) :
    after sC2 V (Proc.devRef .tc r) = V (Proc.devRef .tc r) :=
  after_of_writes_sub _ V sC2_writes hr

/-- A buffer `sB3` does not write keeps its contents across it. -/
theorem sB3_kept {r : Ref sig .tc} (hr : r ∉ sB3W) (V : Valuation τ sig (Elt F)) :
    after sB3 V (Proc.devRef .tc r) = V (Proc.devRef .tc r) :=
  after_of_writes_sub _ V sB3_writes hr

/-- A buffer `sC3` does not write keeps its contents across it. -/
theorem sC3_kept {r : Ref sig .tc} (hr : r ∉ sC3W) (V : Valuation τ sig (Elt F)) :
    after sC3 V (Proc.devRef .tc r) = V (Proc.devRef .tc r) :=
  after_of_writes_sub _ V sC3_writes hr

/-- A buffer `sD` does not write keeps its contents across it. -/
theorem sD_kept {r : Ref sig .tc} (hr : r ∉ sDW) (V : Valuation τ sig (Elt F)) :
    after sD V (Proc.devRef .tc r) = V (Proc.devRef .tc r) :=
  after_of_writes_sub _ V sD_writes hr

/-! ## The dense steps as the host computes them -/

/-- A hidden layer's dense step on the host: `max ((A·Wl + b) + H·Wr, 0)`, the weights already transposed, the bias
    made a row and broadcast along the rows. -/
def hidHost (A H : (⟨S100000x128, .f32⟩ : BufTy).Contents (Elt F)) (Wl Wr : (⟨S128x128, .f32⟩ : BufTy).Contents (Elt F)) (b : (⟨S128, .f32⟩ : BufTy).Contents (Elt F)) : (⟨S100000x128, .f32⟩ : BufTy).Contents (Elt F) :=
  maximumf (addf (addf (Host.dotGeneral dot_S100000x128_S128x128_S100000x128_1_0_0_1_n_n none A Wl) (broadcastInDim S100000x128 ![0, 1] bcast_S1x128_S100000x128_0_1 (broadcastInDim S1x128 ![1] bcast_S128_S1x128_1 b))) (Host.dotGeneral dot_S100000x128_S128x128_S100000x128_1_0_0_1_n_n none H Wr)) (broadcastInDim S100000x128 ![] bcast_S_S100000x128 (constant S_ .f32 0x00000000#32))

/-- The last layer's logits on the host: `(A·Wl + b) + H·Wr`, two columns. -/
def logitsHost (A H : (⟨S100000x128, .f32⟩ : BufTy).Contents (Elt F)) (Wl Wr : (⟨S128x2, .f32⟩ : BufTy).Contents (Elt F)) (b : (⟨S2, .f32⟩ : BufTy).Contents (Elt F)) : (⟨S100000x2, .f32⟩ : BufTy).Contents (Elt F) :=
  addf (addf (Host.dotGeneral dot_S100000x128_S128x2_S100000x2_1_0_0_1_n_n none A Wl) (broadcastInDim S100000x2 ![0, 1] bcast_S1x2_S100000x2_0_1 (broadcastInDim S1x2 ![1] bcast_S2_S1x2_1 b))) (Host.dotGeneral dot_S100000x128_S128x2_S100000x2_1_0_0_1_n_n none H Wr)

/-- The rows' maxima as the host takes them, broadcast back along the rows: the larger of −∞ and the fold of `max` from
    −∞ along each row. -/
def rowMaxHost (z : (⟨S100000x2, .f32⟩ : BufTy).Contents (Elt F)) : (⟨S100000x2, .f32⟩ : BufTy).Contents (Elt F) :=
  broadcastInDim S100000x2 ![0, 1] bcast_S100000x1_S100000x2_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x2_S100000_d1 h_S_)))

/-- The row-wise log-softmax on the host: with `s = z − max z`, the result is `s − log Σ exp s`, the sum from 0 along
    each row. -/
def lsmHost (z : (⟨S100000x2, .f32⟩ : BufTy).Contents (Elt F)) : (⟨S100000x2, .f32⟩ : BufTy).Contents (Elt F) :=
  subf (subf z (rowMaxHost z)) (broadcastInDim S100000x2 ![0, 1] bcast_S100000x1_S100000x2_0_1 (Host.log (broadcastInDim S100000x1 ![0] bcast_S100000_S100000x1_0 (Host.reduceAdd (Host.exp (subf z (rowMaxHost z))) (constant S_ .f32 0x00000000#32) reducesTo_S100000x2_S100000_d1 h_S_))))

/-! ## The network as the host computes it -/

section Net
variable (x : (⟨S100000x128, .f32⟩ : BufTy).Contents (Elt F)) (wl0 wr0 wl1 wr1 : (⟨S128x128, .f32⟩ : BufTy).Contents (Elt F)) (b0 b1 : (⟨S128, .f32⟩ : BufTy).Contents (Elt F))
  (wl2 wr2 : (⟨S2x128, .f32⟩ : BufTy).Contents (Elt F)) (b2 : (⟨S2, .f32⟩ : BufTy).Contents (Elt F)) (src dst : (⟨S1600000, .i32⟩ : BufTy).Contents (Elt F))

/-- The first hidden layer's features: the dense step of the neighbour means of `x` and of `x` itself. -/
def feat1Host : (⟨S100000x128, .f32⟩ : BufTy).Contents (Elt F) :=
  hidHost (Cert.Sage.meanAgg x src dst (Cert.Sage.invDeg dst)) x (transpose S128x128 [1, 0] wl0 transposes_S128x128_S128x128_1_0) (transpose S128x128 [1, 0] wr0 transposes_S128x128_S128x128_1_0) b0

/-- The second hidden layer's features, from the first's. -/
def feat2Host : (⟨S100000x128, .f32⟩ : BufTy).Contents (Elt F) :=
  hidHost (Cert.Sage.meanAgg (feat1Host x wl0 wr0 b0 src dst) src dst (Cert.Sage.invDeg dst)) (feat1Host x wl0 wr0 b0 src dst) (transpose S128x128 [1, 0] wl1 transposes_S128x128_S128x128_1_0) (transpose S128x128 [1, 0] wr1 transposes_S128x128_S128x128_1_0) b1

/-- The output: the row-wise log-softmax of the last layer's logits over the second hidden layer's features. -/
def netHost : (⟨S100000x2, .f32⟩ : BufTy).Contents (Elt F) :=
  lsmHost (logitsHost (Cert.Sage.meanAgg (feat2Host x wl0 wr0 wl1 wr1 b0 b1 src dst) src dst (Cert.Sage.invDeg dst)) (feat2Host x wl0 wr0 wl1 wr1 b0 b1 src dst) (transpose S128x2 [1, 0] wl2 transposes_S2x128_S128x2_1_0) (transpose S128x2 [1, 0] wr2 transposes_S2x128_S128x2_1_0) b2)

end Net

/-! ## What each stretch computes -/

/-- The reciprocal in-degree column is the specification's, of the edges' destinations. -/
theorem sA_v8 (V : Valuation τ sig (Elt F)) :
    after sA V (Proc.devRef .tc main_v8) = Cert.Sage.invDeg (V (Proc.devRef .tc main_arg11)) := by
  unfold sA
  after_results_simp
  rfl

/-- The first neighbour mean is the specification's, of the input features. -/
theorem sB1_v20 (V : Valuation τ sig (Elt F)) :
    after sB1 V (Proc.devRef .tc main_v20) = Cert.Sage.meanAgg (V (Proc.devRef .tc main_arg0)) (V (Proc.devRef .tc main_arg10)) (V (Proc.devRef .tc main_arg11)) (V (Proc.devRef .tc main_v8)) := by
  unfold sB1
  after_results_simp
  rfl

/-- The first hidden layer's dense step, of the neighbour means and the input features. -/
theorem sC1_v29 (V : Valuation τ sig (Elt F)) :
    after sC1 V (Proc.devRef .tc main_v29) = hidHost (V (Proc.devRef .tc main_v20)) (V (Proc.devRef .tc main_arg0)) (transpose S128x128 [1, 0] (V (Proc.devRef .tc main_arg1)) transposes_S128x128_S128x128_1_0) (transpose S128x128 [1, 0] (V (Proc.devRef .tc main_arg3)) transposes_S128x128_S128x128_1_0) (V (Proc.devRef .tc main_arg2)) := by
  unfold sC1
  after_results_simp
  rfl

/-- The second neighbour mean is the specification's, of the first hidden layer's features. -/
theorem sB2_v41 (V : Valuation τ sig (Elt F)) :
    after sB2 V (Proc.devRef .tc main_v41) = Cert.Sage.meanAgg (V (Proc.devRef .tc main_v29)) (V (Proc.devRef .tc main_arg10)) (V (Proc.devRef .tc main_arg11)) (V (Proc.devRef .tc main_v8)) := by
  unfold sB2
  after_results_simp
  rfl

/-- The second hidden layer's dense step. -/
theorem sC2_v50 (V : Valuation τ sig (Elt F)) :
    after sC2 V (Proc.devRef .tc main_v50) = hidHost (V (Proc.devRef .tc main_v41)) (V (Proc.devRef .tc main_v29)) (transpose S128x128 [1, 0] (V (Proc.devRef .tc main_arg4)) transposes_S128x128_S128x128_1_0) (transpose S128x128 [1, 0] (V (Proc.devRef .tc main_arg6)) transposes_S128x128_S128x128_1_0) (V (Proc.devRef .tc main_arg5)) := by
  unfold sC2
  after_results_simp
  rfl

/-- The third neighbour mean is the specification's, of the second hidden layer's features. -/
theorem sB3_v62 (V : Valuation τ sig (Elt F)) :
    after sB3 V (Proc.devRef .tc main_v62) = Cert.Sage.meanAgg (V (Proc.devRef .tc main_v50)) (V (Proc.devRef .tc main_arg10)) (V (Proc.devRef .tc main_arg11)) (V (Proc.devRef .tc main_v8)) := by
  unfold sB3
  after_results_simp
  rfl

/-- The last layer's logits. -/
theorem sC3_v70 (V : Valuation τ sig (Elt F)) :
    after sC3 V (Proc.devRef .tc main_v70) = logitsHost (V (Proc.devRef .tc main_v62)) (V (Proc.devRef .tc main_v50)) (transpose S128x2 [1, 0] (V (Proc.devRef .tc main_arg7)) transposes_S2x128_S128x2_1_0) (transpose S128x2 [1, 0] (V (Proc.devRef .tc main_arg9)) transposes_S2x128_S128x2_1_0) (V (Proc.devRef .tc main_arg8)) := by
  unfold sC3
  after_results_simp
  rfl

/-- The row-wise log-softmax of the logits. -/
theorem sD_v71 (V : Valuation τ sig (Elt F)) :
    after sD V (Proc.devRef .tc main_v71) = lsmHost (V (Proc.devRef .tc main_v70)) := by
  unfold sD
  after_results_simp
  simp only [TRef.ofBuf, TRef.toBuf, cast_eq]
  rfl

/-! ## The whole program -/

/-- The result buffer after the whole program: the network as the host computes it, of the twelve arguments. -/
theorem ops_v71 (V : Valuation τ sig (Elt F)) :
    after ValueP.ops V (Proc.devRef .tc main_v71)
      = netHost (V (Proc.devRef .tc main_arg0)) (V (Proc.devRef .tc main_arg1)) (V (Proc.devRef .tc main_arg3)) (V (Proc.devRef .tc main_arg4)) (V (Proc.devRef .tc main_arg6)) (V (Proc.devRef .tc main_arg2)) (V (Proc.devRef .tc main_arg5)) (V (Proc.devRef .tc main_arg7)) (V (Proc.devRef .tc main_arg9)) (V (Proc.devRef .tc main_arg8)) (V (Proc.devRef .tc main_arg10)) (V (Proc.devRef .tc main_arg11)) := by
  rw [ops_eq]
  simp only [after_append']
  rw [sD_v71]
  rw [sC3_v70]
  rw [sB3_v62,
    sB3_kept (r := main_v50) (by decide),
    sB3_kept (r := main_arg7) (by decide),
    sB3_kept (r := main_arg9) (by decide),
    sB3_kept (r := main_arg8) (by decide)]
  rw [sC2_v50,
    sC2_kept (r := main_arg10) (by decide),
    sC2_kept (r := main_arg11) (by decide),
    sC2_kept (r := main_v8) (by decide),
    sC2_kept (r := main_arg7) (by decide),
    sC2_kept (r := main_arg9) (by decide),
    sC2_kept (r := main_arg8) (by decide)]
  rw [sB2_v41,
    sB2_kept (r := main_v29) (by decide),
    sB2_kept (r := main_arg4) (by decide),
    sB2_kept (r := main_arg6) (by decide),
    sB2_kept (r := main_arg5) (by decide),
    sB2_kept (r := main_arg10) (by decide),
    sB2_kept (r := main_arg11) (by decide),
    sB2_kept (r := main_v8) (by decide),
    sB2_kept (r := main_arg7) (by decide),
    sB2_kept (r := main_arg9) (by decide),
    sB2_kept (r := main_arg8) (by decide)]
  rw [sC1_v29,
    sC1_kept (r := main_arg10) (by decide),
    sC1_kept (r := main_arg11) (by decide),
    sC1_kept (r := main_v8) (by decide),
    sC1_kept (r := main_arg4) (by decide),
    sC1_kept (r := main_arg6) (by decide),
    sC1_kept (r := main_arg5) (by decide),
    sC1_kept (r := main_arg7) (by decide),
    sC1_kept (r := main_arg9) (by decide),
    sC1_kept (r := main_arg8) (by decide)]
  rw [sB1_v20,
    sB1_kept (r := main_arg0) (by decide),
    sB1_kept (r := main_arg1) (by decide),
    sB1_kept (r := main_arg3) (by decide),
    sB1_kept (r := main_arg2) (by decide),
    sB1_kept (r := main_arg10) (by decide),
    sB1_kept (r := main_arg11) (by decide),
    sB1_kept (r := main_v8) (by decide),
    sB1_kept (r := main_arg4) (by decide),
    sB1_kept (r := main_arg6) (by decide),
    sB1_kept (r := main_arg5) (by decide),
    sB1_kept (r := main_arg7) (by decide),
    sB1_kept (r := main_arg9) (by decide),
    sB1_kept (r := main_arg8) (by decide)]
  rw [sA_v8,
    sA_kept (r := main_arg0) (by decide),
    sA_kept (r := main_arg10) (by decide),
    sA_kept (r := main_arg11) (by decide),
    sA_kept (r := main_arg1) (by decide),
    sA_kept (r := main_arg3) (by decide),
    sA_kept (r := main_arg2) (by decide),
    sA_kept (r := main_arg4) (by decide),
    sA_kept (r := main_arg6) (by decide),
    sA_kept (r := main_arg5) (by decide),
    sA_kept (r := main_arg7) (by decide),
    sA_kept (r := main_arg9) (by decide),
    sA_kept (r := main_arg8) (by decide)]
  rfl

/-- A buffer no stretch writes keeps its contents across the whole program. -/
theorem ops_kept {r : Ref sig .tc} (hA : r ∉ sAW) (hB1 : r ∉ sB1W) (hC1 : r ∉ sC1W) (hB2 : r ∉ sB2W) (hC2 : r ∉ sC2W)
    (hB3 : r ∉ sB3W) (hC3 : r ∉ sC3W) (hD : r ∉ sDW) (V : Valuation τ sig (Elt F)) :
    after ValueP.ops V (Proc.devRef .tc r) = V (Proc.devRef .tc r) := by
  rw [ops_eq]
  simp only [after_append']
  rw [sD_kept hD, sC3_kept hC3, sB3_kept hB3, sC2_kept hC2, sB2_kept hB2, sC1_kept hC1, sB1_kept hB1, sA_kept hA]

end Cert.ReferenceIdeal.Sage

end
-- ==== Proof.RefDense.lean ====
/-
  The host's operations of the dense steps, each read at one entry on the extended reals.

  A contraction of a [100000, 128] array with a [128, n] one is, at (p, q), the sum over k of the products
  `A[p,k]·W[k,q]`: the contraction index has one coordinate, and the two operand indices at (p, q) and k are (p, k)
  and (k, q). A bias vector made a row and broadcast along the rows reads the vector at the column, and so does the
  vector cast to a row. A column broadcast along a row of two reads the column at the row. A fold of `max` along a row
  from −∞ is the specification's `rowMax`, and the larger of −∞ and it is itself; a row's sum from 0 is the sum.
-/
import proofs.«178284_j81870666596807_1_alg».proof.Proof.Gen.ReferenceIdeal
import proofs.«178284_j81870666596807_1_alg».proof.Proof.Spec
import Idealize.ShloMosaic.Lib.ValueIdx
import Idealize.ShloMosaic.Lib.Pipeline.Value
import Idealize.ShloMosaic.PureOps.Ideal.Laws

noncomputable section

namespace Cert.ReferenceIdeal.Sage

open Cert.ReferenceIdeal Cert.ReferenceIdeal.Gen Idealize.ShloMosaic Idealize.ShloMosaic.ValueIdx
open scoped BigOperators

/-! ## The two contractions -/

/-- A hidden layer's contraction: the left operand's row is the result's row … -/
theorem dotH_lhs0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
/-- … its column the contraction position … -/
theorem dotH_lhs1 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
/-- … the right operand's row the contraction position … -/
theorem dotH_rhs0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
/-- … and its column the result's column. -/
theorem dotH_rhs1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The host's product of a [100000, 128] array with a [128, 128] one, entry (p, q): `Σ_k A[p,k]·W[k,q]`. -/
theorem dotH_apply (A : FVec Ideal S100000x128 .f32) (W : FVec Ideal S128x128 .f32) (p : Fin 100000) (q : Fin 128) :
    Host.dotGeneral (F := Ideal) dot_S100000x128_S128x128_S100000x128_1_0_0_1_n_n none A W (ix2 p q) = ∑ k : Fin 128, A (ix2 p k) * W (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k :=
    funext fun a => Fin.ext (by
      match a with
      | ⟨0, _⟩ => exact dotH_lhs0 _ _
      | ⟨1, _⟩ => exact (dotH_lhs1 _ _).trans hk)
  have er : dot_S100000x128_S128x128_S100000x128_1_0_0_1_n_n.rhsIdx (ix2 p q) ((contrEquiv1 dot_S100000x128_S128x128_S100000x128_1_0_0_1_n_n 128 rfl rfl).symm k) = ix2 k q :=
    funext fun a => Fin.ext (by
      match a with
      | ⟨0, _⟩ => exact (dotH_rhs0 _ _).trans hk
      | ⟨1, _⟩ => exact dotH_rhs1 _ _)
  rw [el, er]

/-- The last layer's contraction: the left operand's row is the result's row … -/
theorem dotO_lhs0 (i : S100000x2.Idx) (c : dot_S100000x128_S128x2_S100000x2_1_0_0_1_n_n.contr.Idx) :
    (dot_S100000x128_S128x2_S100000x2_1_0_0_1_n_n.lhsIdx i c 0).val = (i 0).val := by
  unfold DotDims.lhsIdx
  rw [dif_neg (show ¬(0 : Fin S100000x128.rank) ∈ dot_S100000x128_S128x2_S100000x2_1_0_0_1_n_n.lhsBatch by decide),
    dif_pos (show (0 : Fin S100000x128.rank) ∈ dot_S100000x128_S128x2_S100000x2_1_0_0_1_n_n.lhsNonContracting by decide)]
  rfl
/-- … its column the contraction position … -/
theorem dotO_lhs1 (i : S100000x2.Idx) (c : dot_S100000x128_S128x2_S100000x2_1_0_0_1_n_n.contr.Idx) :
    (dot_S100000x128_S128x2_S100000x2_1_0_0_1_n_n.lhsIdx i c 1).val = (c ⟨0, by decide⟩).val :=
  dot_S100000x128_S128x2_S100000x2_1_0_0_1_n_n.lhsIdx_val_of_single rfl i c
/-- … the right operand's row the contraction position … -/
theorem dotO_rhs0 (i : S100000x2.Idx) (c : dot_S100000x128_S128x2_S100000x2_1_0_0_1_n_n.contr.Idx) :
    (dot_S100000x128_S128x2_S100000x2_1_0_0_1_n_n.rhsIdx i c 0).val = (c ⟨0, by decide⟩).val :=
  dot_S100000x128_S128x2_S100000x2_1_0_0_1_n_n.rhsIdx_val_of_single rfl i c
/-- … and its column the result's column. -/
theorem dotO_rhs1 (i : S100000x2.Idx) (c : dot_S100000x128_S128x2_S100000x2_1_0_0_1_n_n.contr.Idx) :
    (dot_S100000x128_S128x2_S100000x2_1_0_0_1_n_n.rhsIdx i c 1).val = (i 1).val := by
  unfold DotDims.rhsIdx
  rw [dif_neg (show ¬(1 : Fin S128x2.rank) ∈ dot_S100000x128_S128x2_S100000x2_1_0_0_1_n_n.rhsBatch by decide),
    dif_pos (show (1 : Fin S128x2.rank) ∈ dot_S100000x128_S128x2_S100000x2_1_0_0_1_n_n.rhsNonContracting by decide)]
  rfl

/-- The host's product of a [100000, 128] array with a [128, 2] one, entry (p, q): `Σ_k A[p,k]·W[k,q]`. -/
theorem dotO_apply (A : FVec Ideal S100000x128 .f32) (W : FVec Ideal S128x2 .f32) (p : Fin 100000) (q : Fin 2) :
    Host.dotGeneral (F := Ideal) dot_S100000x128_S128x2_S100000x2_1_0_0_1_n_n none A W (ix2 p q) = ∑ k : Fin 128, A (ix2 p k) * W (ix2 k q) := by
  simp only [Host.dotGeneral]
  rw [Ideal.dotGeneral_apply, ← Equiv.sum_comp (contrEquiv1 dot_S100000x128_S128x2_S100000x2_1_0_0_1_n_n 128 rfl rfl).symm]
  refine Finset.sum_congr rfl fun k _ => ?_
  have hk := contrEquiv1_symm_val dot_S100000x128_S128x2_S100000x2_1_0_0_1_n_n 128 rfl rfl k
  have el : dot_S100000x128_S128x2_S100000x2_1_0_0_1_n_n.lhsIdx (ix2 p q) ((contrEquiv1 dot_S100000x128_S128x2_S100000x2_1_0_0_1_n_n 128 rfl rfl).symm k) = ix2 p k :=
    funext fun a => Fin.ext (by
      match a with
      | ⟨0, _⟩ => exact dotO_lhs0 _ _
      | ⟨1, _⟩ => exact (dotO_lhs1 _ _).trans hk)
  have er : dot_S100000x128_S128x2_S100000x2_1_0_0_1_n_n.rhsIdx (ix2 p q) ((contrEquiv1 dot_S100000x128_S128x2_S100000x2_1_0_0_1_n_n 128 rfl rfl).symm k) = ix2 k q :=
    funext fun a => Fin.ext (by
      match a with
      | ⟨0, _⟩ => exact (dotO_rhs0 _ _).trans hk
      | ⟨1, _⟩ => exact dotO_rhs1 _ _)
  rw [el, er]

/-! ## The bias rows -/

/-- A bias vector of length 128, made a row and broadcast along the 100000 rows, reads at (p, q) the vector at q. -/
theorem biasH_apply {α : Type} (b : S128.Idx → α) (p : Fin 100000) (q : Fin 128) :
    broadcastInDim S100000x128 ![0, 1] bcast_S1x128_S100000x128_0_1 (broadcastInDim S1x128 ![1] bcast_S128_S1x128_1 b) (ix2 p q) = b (ix1 q) := by
  rw [broadcastInDim_apply _ bcast_S1x128_S100000x128_0_1 _ (ix2 p q) (ix2 (0 : Fin 1) q) (fun a => match a with
    | ⟨0, _⟩ => rfl
    | ⟨1, _⟩ => by show q.val = if (128 : ℕ) = 1 then 0 else q.val; rw [if_neg (by decide)])]
  exact broadcastInDim_apply _ bcast_S128_S1x128_1 b (ix2 (0 : Fin 1) q) (ix1 q) (fun a => match a with
    | ⟨0, _⟩ => by show q.val = if (128 : ℕ) = 1 then 0 else q.val; rw [if_neg (by decide)])

/-- A bias vector of length 2, made a row and broadcast along the 100000 rows, reads at (p, q) the vector at q. -/
theorem biasO_apply {α : Type} (b : S2.Idx → α) (p : Fin 100000) (q : Fin 2) :
    broadcastInDim S100000x2 ![0, 1] bcast_S1x2_S100000x2_0_1 (broadcastInDim S1x2 ![1] bcast_S2_S1x2_1 b) (ix2 p q) = b (ix1 q) := by
  rw [broadcastInDim_apply _ bcast_S1x2_S100000x2_0_1 _ (ix2 p q) (ix2 (0 : Fin 1) q) (fun a => match a with
    | ⟨0, _⟩ => rfl
    | ⟨1, _⟩ => by show q.val = if (2 : ℕ) = 1 then 0 else q.val; rw [if_neg (by decide)])]
  exact broadcastInDim_apply _ bcast_S2_S1x2_1 b (ix2 (0 : Fin 1) q) (ix1 q) (fun a => match a with
    | ⟨0, _⟩ => by show q.val = if (2 : ℕ) = 1 then 0 else q.val; rw [if_neg (by decide)])

/-- A vector of length n cast to a [1, n] row reads at (0, q) the vector at q: both sit at row-major position q. -/
theorem rowCast_apply {α : Type} {n : ℕ} (b : (⟨1, ![n]⟩ : Shape).Idx → α) (h : (⟨1, ![n]⟩ : Shape).ShapeCasts ⟨2, ![1, n]⟩)
    (q : Fin n) : shapeCast ⟨2, ![1, n]⟩ b h (ix2 (0 : Fin 1) q) = b (ix1 q) :=
  shapeCast_apply b h _ _ (by
    rw [Shape.rowMajor_val_two, Shape.rowMajor_val_one]
    show q.val = 0 * n + q.val
    rw [Nat.zero_mul, Nat.zero_add])

/-! ## Columns -/

/-- A vector of length 100000 as a column reads at (p, u) the vector at p. -/
theorem col_apply {α : Type} (w : S100000.Idx → α) (p : Fin 100000) (u : Fin 1) :
    broadcastInDim S100000x1 ![0] bcast_S100000_S100000x1_0 w (ix2 p u) = w (ix1 p) :=
  broadcastInDim_apply _ bcast_S100000_S100000x1_0 w (ix2 p u) (ix1 p) (fun a => match a with
    | ⟨0, _⟩ => by show p.val = if (100000 : ℕ) = 1 then 0 else p.val; rw [if_neg (by decide)])

/-- A column broadcast along rows of two reads at (p, q) the column at row p. -/
theorem colRow2_apply {α : Type} (v : S100000x1.Idx → α) (p : Fin 100000) (q : Fin 2) :
    broadcastInDim S100000x2 ![0, 1] bcast_S100000x1_S100000x2_0_1 v (ix2 p q) = v (ix2 p (0 : Fin 1)) :=
  broadcastInDim_apply _ bcast_S100000x1_S100000x2_0_1 v (ix2 p q) (ix2 p (0 : Fin 1)) (fun a => match a with
    | ⟨0, _⟩ => by show p.val = if (100000 : ℕ) = 1 then 0 else p.val; rw [if_neg (by decide)]
    | ⟨1, _⟩ => rfl)

/-! ## The two reductions along a row of two -/

/-- The shapes' reduction fact in the form that names the inserted coordinate. -/
theorem reduces_row2 : S100000x2.Reduces [1] S100000 := by decide

/-- Row p with the column k inserted is the entry (p, k). -/
theorem lift_row2 (p : Fin 100000) (k : Fin 2) : reduces_row2.lift (ix1 p) k = ix2 p k :=
  funext fun a => Fin.ext (by
    match a with
    | ⟨0, _⟩ => rfl
    | ⟨1, _⟩ => rfl)

/-- The host's fold of `max` along each row from −∞ is, at row p, the specification's row maximum. -/
theorem reduceMax_apply (z : FVec Ideal S100000x2 .f32) (p : Fin 100000) :
    Host.reduce FloatOps.maximumf z (constant (F := Ideal) S_ .f32 0xFF800000#32) reducesTo_S100000x2_S100000_d1 h_S_ (ix1 p)
      = Cert.Sage.rowMax (fun k => z (ix2 p k)) := by
  rw [Host.reduce_eq_fold_single FloatOps.maximumf z _ reducesTo_S100000x2_S100000_d1 reduces_row2 h_S_ (ix1 p)]
  have e : z ∘ reduces_row2.lift (ix1 p) = fun k => z (ix2 p k) := funext fun k => congrArg z (lift_row2 p k)
  rw [e]
  rfl

/-- The larger of −∞ and a fold of `max` from −∞ is the fold. -/
theorem max_rowMax (z : Fin 2 → EReal) : max (Ideal.ofBits .f32 0xFF800000#32) (Cert.Sage.rowMax z) = Cert.Sage.rowMax z :=
  max_eq_right ((Finset.le_fold_max _).mpr (Or.inl le_rfl))

/-- The host's sum along each row from 0 is, at row p, the sum of the row's two entries. -/
theorem reduceAdd_apply (y : FVec Ideal S100000x2 .f32) (p : Fin 100000) :
    Host.reduceAdd (F := Ideal) y (constant (F := Ideal) S_ .f32 0x00000000#32) reducesTo_S100000x2_S100000_d1 h_S_ (ix1 p)
      = ∑ k : Fin 2, y (ix2 p k) := by
  unfold Host.reduceAdd
  rw [Ideal.hostReduceAdd_def, Ideal.hostReduceAdd_single reducesTo_S100000x2_S100000_d1 reduces_row2 y _ (ix1 p), constant_apply,
    Ideal.ofBits_zero_f32, zero_add]
  exact Finset.sum_congr rfl fun k _ => congrArg y (lift_row2 p k)

end Cert.ReferenceIdeal.Sage

end
-- ==== Proof.RefChain.lean ====
/-
  The reference's result is the specification's network, of the launch contents of the twelve arguments.

  The host's dense steps are read entry by entry: a hidden layer's `max ((A·Wl + b) + H·Wr, 0)` is the
  specification's `max (A·Wl + H·Wr + b, 0)`, the two sums and the bias regrouped (addition of extended reals is
  commutative and associative); the log-softmax's row maximum `max (−∞, fold max (−∞) z)` is the fold itself, and its
  sum of exponentials from 0 is the sum. The program's stretches then compose to the three layers.
-/
import proofs.«178284_j81870666596807_1_alg».proof.Proof.RefStretch
import proofs.«178284_j81870666596807_1_alg».proof.Proof.RefDense

noncomputable section

namespace Cert.ReferenceIdeal.Sage

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## The hidden layers' dense step -/

/-- A scalar broadcast to any shape reads the scalar everywhere. -/
theorem splat_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- The host's hidden-layer step is the specification's: at (p, q) both are the positive part of the two sums and the
    bias at q, the host adding the bias between the sums. -/
theorem hidHost_eq (A H : FVec Ideal S100000x128 .f32) (Wl Wr : FVec Ideal S128x128 .f32) (b : FVec Ideal S128 .f32)
    (h : S128.ShapeCasts S1x128) :
    hidHost (F := Ideal) A H Wl Wr b = Cert.Sage.hiddenLayer A H Wl Wr (shapeCast S1x128 b h) := by
  funext i
  obtain ⟨p, q, rfl⟩ : ∃ (p : Fin 100000) (q : Fin 128), i = ix2 p q := ⟨i 0, i 1, eq_ix2 i⟩
  rw [show Cert.Sage.hiddenLayer A H Wl Wr (shapeCast S1x128 b h) (ix2 p q)
      = max (Cert.Sage.lin128 A H Wl Wr (shapeCast S1x128 b h) p q) 0 from rfl]
  unfold hidHost Cert.Sage.lin128
  rw [maximumf_apply, addf_apply, addf_apply, dotH_apply, dotH_apply, biasH_apply, splat_apply, constant_apply,
    Ideal.ofBits_zero_f32, rowCast_apply, add_right_comm]

/-! ## The last layer -/

/-- The host's logits are the specification's, entry by entry. -/
theorem logitsHost_apply (A H : FVec Ideal S100000x128 .f32) (Wl Wr : FVec Ideal S128x2 .f32) (b : FVec Ideal S2 .f32)
    (h : S2.ShapeCasts S1x2) (p : Fin 100000) (q : Fin 2) :
    logitsHost (F := Ideal) A H Wl Wr b (ix2 p q) = Cert.Sage.lin2 A H Wl Wr (shapeCast S1x2 b h) p q := by
  unfold logitsHost Cert.Sage.lin2
  rw [addf_apply, addf_apply, dotO_apply, dotO_apply, biasO_apply, rowCast_apply, add_right_comm]

/-- The host's row maximum, broadcast back, reads at (p, q) the specification's maximum of row p. -/
theorem rowMaxHost_apply (z : FVec Ideal S100000x2 .f32) (p : Fin 100000) (q : Fin 2) :
    rowMaxHost (F := Ideal) z (ix2 p q) = Cert.Sage.rowMax (fun k => z (ix2 p k)) := by
  unfold rowMaxHost
  rw [colRow2_apply, col_apply, maximumf_apply, splat_apply, constant_apply, reduceMax_apply, max_rowMax]

/-- The host's logarithm and exponential read at an entry are the extended reals'. -/
theorem hostLog_apply {s : Shape} (v : FVec Ideal s .f32) (i : s.Idx) : Host.log (F := Ideal) v i = Ideal.log (v i) := rfl
theorem hostExp_apply {s : Shape} (v : FVec Ideal s .f32) (i : s.Idx) : Host.exp (F := Ideal) v i = Ideal.exp (v i) := rfl

/-- The host's log-softmax reads at (p, q) the specification's log-softmax of row p at q. -/
theorem lsmHost_apply (z : FVec Ideal S100000x2 .f32) (p : Fin 100000) (q : Fin 2) :
    lsmHost (F := Ideal) z (ix2 p q) = Cert.Sage.logSoftmaxRow (fun k => z (ix2 p k)) q := by
  unfold lsmHost Cert.Sage.logSoftmaxRow
  rw [subf_apply, subf_apply, rowMaxHost_apply, colRow2_apply, hostLog_apply, col_apply, reduceAdd_apply]
  refine congrArg (fun s => z (ix2 p q) - Cert.Sage.rowMax (fun k => z (ix2 p k)) - Ideal.log s) (Finset.sum_congr rfl fun k _ => ?_)
  rw [hostExp_apply, subf_apply, rowMaxHost_apply]

/-- The host's last layer is the specification's. -/
theorem outHost_eq (A H : FVec Ideal S100000x128 .f32) (Wl Wr : FVec Ideal S128x2 .f32) (b : FVec Ideal S2 .f32)
    (h : S2.ShapeCasts S1x2) :
    lsmHost (F := Ideal) (logitsHost A H Wl Wr b) = Cert.Sage.outLayer A H Wl Wr (shapeCast S1x2 b h) := by
  funext i
  obtain ⟨p, q, rfl⟩ : ∃ (p : Fin 100000) (q : Fin 2), i = ix2 p q := ⟨i 0, i 1, eq_ix2 i⟩
  rw [lsmHost_apply]
  exact congrArg (fun z => Cert.Sage.logSoftmaxRow z q) (funext fun k => logitsHost_apply A H Wl Wr b h p k)

/-! ## The network -/

section Net
variable (x : FVec Ideal S100000x128 .f32) (wl0 wr0 wl1 wr1 : FVec Ideal S128x128 .f32) (b0 b1 : FVec Ideal S128 .f32)
  (wl2 wr2 : FVec Ideal S2x128 .f32) (b2 : FVec Ideal S2 .f32) (src dst : IVec S1600000 32)

/-- The network as the host computes it is the specification's. -/
theorem netHost_eq :
    netHost (F := Ideal) x wl0 wr0 wl1 wr1 b0 b1 wl2 wr2 b2 src dst
      = Cert.Sage.net x wl0 wr0 wl1 wr1 b0 b1 wl2 wr2 b2 src dst := by
  unfold netHost feat2Host feat1Host Cert.Sage.net Cert.Sage.feat2 Cert.Sage.feat1
  simp only [outHost_eq _ _ _ _ _ Cert.KernelIdeal.Facts₀.shapeCasts_S2_S1x2,
    hidHost_eq _ _ _ _ _ Cert.KernelIdeal.Facts₀.shapeCasts_S128_S1x128]

end Net

/-! ## The run's result and the arguments -/

section Run
variable (m : (ℓ : Loc nD τ sig) → Buf (Elt Ideal) ℓ) (d : Dev nD)

/-- The result buffer after the 103 operations, from the launch contents: the specification's network of the twelve
    arguments' launch contents. -/
theorem ref_value :
    after (ValueP.ops (F := Ideal)) (launchContents m d) (Proc.devRef .tc main_v71)
      = Cert.Sage.net (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg6)) (m ((d.tc : Thread nD τ).loc main_arg2)) (m ((d.tc : Thread nD τ).loc main_arg5)) (m ((d.tc : Thread nD τ).loc main_arg7)) (m ((d.tc : Thread nD τ).loc main_arg9)) (m ((d.tc : Thread nD τ).loc main_arg8)) (m ((d.tc : Thread nD τ).loc main_arg10)) (m ((d.tc : Thread nD τ).loc main_arg11)) :=
  (ops_v71 (launchContents m d)).trans (netHost_eq _ _ _ _ _ _ _ _ _ _ _ _)

/-- No operation writes argument 0: it ends as launched. -/
theorem ref_kept_arg0 :
    after (ValueP.ops (F := Ideal)) (launchContents m d) (Proc.devRef .tc main_arg0) = m ((d.tc : Thread nD τ).loc main_arg0) :=
  ops_kept (by decide) (by decide) (by decide) (by decide) (by decide) (by decide) (by decide) (by decide) (launchContents m d)

/-- No operation writes argument 1: it ends as launched. -/
theorem ref_kept_arg1 :
    after (ValueP.ops (F := Ideal)) (launchContents m d) (Proc.devRef .tc main_arg1) = m ((d.tc : Thread nD τ).loc main_arg1) :=
  ops_kept (by decide) (by decide) (by decide) (by decide) (by decide) (by decide) (by decide) (by decide) (launchContents m d)

/-- No operation writes argument 2: it ends as launched. -/
theorem ref_kept_arg2 :
    after (ValueP.ops (F := Ideal)) (launchContents m d) (Proc.devRef .tc main_arg2) = m ((d.tc : Thread nD τ).loc main_arg2) :=
  ops_kept (by decide) (by decide) (by decide) (by decide) (by decide) (by decide) (by decide) (by decide) (launchContents m d)

/-- No operation writes argument 3: it ends as launched. -/
theorem ref_kept_arg3 :
    after (ValueP.ops (F := Ideal)) (launchContents m d) (Proc.devRef .tc main_arg3) = m ((d.tc : Thread nD τ).loc main_arg3) :=
  ops_kept (by decide) (by decide) (by decide) (by decide) (by decide) (by decide) (by decide) (by decide) (launchContents m d)

/-- No operation writes argument 4: it ends as launched. -/
theorem ref_kept_arg4 :
    after (ValueP.ops (F := Ideal)) (launchContents m d) (Proc.devRef .tc main_arg4) = m ((d.tc : Thread nD τ).loc main_arg4) :=
  ops_kept (by decide) (by decide) (by decide) (by decide) (by decide) (by decide) (by decide) (by decide) (launchContents m d)

/-- No operation writes argument 5: it ends as launched. -/
theorem ref_kept_arg5 :
    after (ValueP.ops (F := Ideal)) (launchContents m d) (Proc.devRef .tc main_arg5) = m ((d.tc : Thread nD τ).loc main_arg5) :=
  ops_kept (by decide) (by decide) (by decide) (by decide) (by decide) (by decide) (by decide) (by decide) (launchContents m d)

/-- No operation writes argument 6: it ends as launched. -/
theorem ref_kept_arg6 :
    after (ValueP.ops (F := Ideal)) (launchContents m d) (Proc.devRef .tc main_arg6) = m ((d.tc : Thread nD τ).loc main_arg6) :=
  ops_kept (by decide) (by decide) (by decide) (by decide) (by decide) (by decide) (by decide) (by decide) (launchContents m d)

/-- No operation writes argument 7: it ends as launched. -/
theorem ref_kept_arg7 :
    after (ValueP.ops (F := Ideal)) (launchContents m d) (Proc.devRef .tc main_arg7) = m ((d.tc : Thread nD τ).loc main_arg7) :=
  ops_kept (by decide) (by decide) (by decide) (by decide) (by decide) (by decide) (by decide) (by decide) (launchContents m d)

/-- No operation writes argument 8: it ends as launched. -/
theorem ref_kept_arg8 :
    after (ValueP.ops (F := Ideal)) (launchContents m d) (Proc.devRef .tc main_arg8) = m ((d.tc : Thread nD τ).loc main_arg8) :=
  ops_kept (by decide) (by decide) (by decide) (by decide) (by decide) (by decide) (by decide) (by decide) (launchContents m d)

/-- No operation writes argument 9: it ends as launched. -/
theorem ref_kept_arg9 :
    after (ValueP.ops (F := Ideal)) (launchContents m d) (Proc.devRef .tc main_arg9) = m ((d.tc : Thread nD τ).loc main_arg9) :=
  ops_kept (by decide) (by decide) (by decide) (by decide) (by decide) (by decide) (by decide) (by decide) (launchContents m d)

/-- No operation writes argument 10: it ends as launched. -/
theorem ref_kept_arg10 :
    after (ValueP.ops (F := Ideal)) (launchContents m d) (Proc.devRef .tc main_arg10) = m ((d.tc : Thread nD τ).loc main_arg10) :=
  ops_kept (by decide) (by decide) (by decide) (by decide) (by decide) (by decide) (by decide) (by decide) (launchContents m d)

/-- No operation writes argument 11: it ends as launched. -/
theorem ref_kept_arg11 :
    after (ValueP.ops (F := Ideal)) (launchContents m d) (Proc.devRef .tc main_arg11) = m ((d.tc : Thread nD τ).loc main_arg11) :=
  ops_kept (by decide) (by decide) (by decide) (by decide) (by decide) (by decide) (by decide) (by decide) (launchContents m d)

end Run

end Cert.ReferenceIdeal.Sage

end
-- ==== Proof.lean ====
/-
  Three graph layers — a mean over each node's incoming edges, then a dense step — computed two ways.

  Both programs take node features x [100000, 128], three layers' weights and biases, and 1.6 million edges
  (source, destination). Each layer sends features h to the dense step of (mean over incoming edges of h, h):
  A·Wlᵀ + H·Wrᵀ + b, followed by max(·, 0) in the first two layers and by the row-wise log-softmax in the last
  (two output columns). The kernel program keeps the gather, the scatter-add and the scaling by the reciprocal
  in-degree on the host and runs each dense step as a pipelined region over twenty blocks of 5000 rows; the
  reference does everything on the host.

  On the extended reals the two agree entry by entry: a rounding of a factor to a shorter format is the identity, a
  matrix product into a zero accumulator is the plain sum of products, the blocks of rows tile the array, and the
  only difference left is the place of the bias in the sum — (A·Wl + H·Wr) + b against (A·Wl + b) + H·Wr — which
  addition's commutativity and associativity settle; no entry needs to be finite. The mean over edges is the same
  chain of operations in both programs and is never opened (Proof/Spec.lean, `Cert.Sage.net`).

  The parts: the kernel program's result buffer followed from the launch memory through three host stretches and
  three regions (Proof/KChain.lean over the regions' whole-array values Proof/KRegion0–2.lean); the reference's
  result buffer followed through its 103 host operations in four stretches (Proof/RefChain.lean); both are
  `Cert.Sage.net` of the twelve arguments. The kernel's frames are the generated ones; the reference's frame is its
  run with the arguments read back.
-/
import proofs.«178284_j81870666596807_1_alg».proof.Defs
import proofs.«178284_j81870666596807_1_alg».proof.Proof.Gen.Kernel
import proofs.«178284_j81870666596807_1_alg».proof.Proof.Gen.Kernel.Skeleton
import proofs.«178284_j81870666596807_1_alg».proof.Proof.Gen.Kernel.Launch
import proofs.«178284_j81870666596807_1_alg».proof.Proof.Gen.Kernel.Points
import proofs.«178284_j81870666596807_1_alg».proof.Proof.Gen.Kernel.Frame
import proofs.«178284_j81870666596807_1_alg».proof.Proof.Gen.KernelIdeal
import proofs.«178284_j81870666596807_1_alg».proof.Proof.Gen.KernelIdeal.Skeleton
import proofs.«178284_j81870666596807_1_alg».proof.Proof.Gen.KernelIdeal.Launch
import proofs.«178284_j81870666596807_1_alg».proof.Proof.Gen.KernelIdeal.Points
import proofs.«178284_j81870666596807_1_alg».proof.Proof.Gen.KernelIdeal.Frame
import proofs.«178284_j81870666596807_1_alg».proof.Proof.Gen.ReferenceIdeal
import proofs.«178284_j81870666596807_1_alg».proof.Proof.Gen.Pre_finite_inputs
import proofs.«178284_j81870666596807_1_alg».proof.Proof.KRun
import proofs.«178284_j81870666596807_1_alg».proof.Proof.KChain
import proofs.«178284_j81870666596807_1_alg».proof.Proof.KRegion0
import proofs.«178284_j81870666596807_1_alg».proof.Proof.KRegion1
import proofs.«178284_j81870666596807_1_alg».proof.Proof.KRegion2
import proofs.«178284_j81870666596807_1_alg».proof.Proof.RefRun
import proofs.«178284_j81870666596807_1_alg».proof.Proof.RefChain
import Idealize.ShloMosaic.Adequacy
import Idealize.ShloMosaic.Init

noncomputable section

namespace Cert.Proof

open Idealize.ShloMosaic Idealize.ShloMosaic.TcCoe Idealize.SL.Sem

/-- The word-level kernel program runs and leaves its arguments alone: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun _ h c =>
    ⟨(h c _).trans (Cert.ReferenceIdeal.Sage.ref_kept_arg0 m c),
     (h c _).trans (Cert.ReferenceIdeal.Sage.ref_kept_arg1 m c),
     (h c _).trans (Cert.ReferenceIdeal.Sage.ref_kept_arg2 m c),
     (h c _).trans (Cert.ReferenceIdeal.Sage.ref_kept_arg3 m c),
     (h c _).trans (Cert.ReferenceIdeal.Sage.ref_kept_arg4 m c),
     (h c _).trans (Cert.ReferenceIdeal.Sage.ref_kept_arg5 m c),
     (h c _).trans (Cert.ReferenceIdeal.Sage.ref_kept_arg6 m c),
     (h c _).trans (Cert.ReferenceIdeal.Sage.ref_kept_arg7 m c),
     (h c _).trans (Cert.ReferenceIdeal.Sage.ref_kept_arg8 m c),
     (h c _).trans (Cert.ReferenceIdeal.Sage.ref_kept_arg9 m c),
     (h c _).trans (Cert.ReferenceIdeal.Sage.ref_kept_arg10 m c),
     (h c _).trans (Cert.ReferenceIdeal.Sage.ref_kept_arg11 m c)⟩)
    (Cert.ReferenceIdeal.ValueP.run_raw (F := Ideal) m ρ)

/-- The ideal pass rewrote nothing: there is nothing to preserve. -/
theorem preserves : Cert.preserves_Kernel_KernelIdeal := trivial

/-- From memories that agree on the twelve arguments both programs end with the network's output
    `Cert.Sage.net` of those arguments in their result buffers, the arguments unchanged. -/
theorem algebraic : Cert.algebraic_KernelIdeal_ReferenceIdeal := by
  intro m ρ m' ρ' _ hagree
  refine ⟨fun (c : Dev Cert.KernelIdeal.nD) => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun _ h c =>
      ⟨(h c).1.trans (Cert.KernelIdeal.Sage.kernel_value m ρ Cert.KernelIdeal.Sage.region0_value Cert.KernelIdeal.Sage.region1_value
          Cert.KernelIdeal.Sage.region2_value c), (h c).2⟩)
      (Cert.KernelIdeal.GenP.run_main (F := Ideal) m ρ)
  · refine (θ_run Cert.ReferenceIdeal.defs _ _).mono (fun _ h c => ⟨?_,
     (h c _).trans (Cert.ReferenceIdeal.Sage.ref_kept_arg0 m' c),
     (h c _).trans (Cert.ReferenceIdeal.Sage.ref_kept_arg1 m' c),
     (h c _).trans (Cert.ReferenceIdeal.Sage.ref_kept_arg2 m' c),
     (h c _).trans (Cert.ReferenceIdeal.Sage.ref_kept_arg3 m' c),
     (h c _).trans (Cert.ReferenceIdeal.Sage.ref_kept_arg4 m' c),
     (h c _).trans (Cert.ReferenceIdeal.Sage.ref_kept_arg5 m' c),
     (h c _).trans (Cert.ReferenceIdeal.Sage.ref_kept_arg6 m' c),
     (h c _).trans (Cert.ReferenceIdeal.Sage.ref_kept_arg7 m' c),
     (h c _).trans (Cert.ReferenceIdeal.Sage.ref_kept_arg8 m' c),
     (h c _).trans (Cert.ReferenceIdeal.Sage.ref_kept_arg9 m' c),
     (h c _).trans (Cert.ReferenceIdeal.Sage.ref_kept_arg10 m' c),
     (h c _).trans (Cert.ReferenceIdeal.Sage.ref_kept_arg11 m' c)⟩)
      (Cert.ReferenceIdeal.ValueP.run_raw (F := Ideal) m' ρ')
    obtain ⟨e0, e1, e2, e3, e4, e5, e6, e7, e8, e9, e10, e11⟩ := hagree c
    rw [h c _, Cert.ReferenceIdeal.Sage.ref_value m' c, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
